-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x512x512 : Shape := ⟨4, ![8, 16, 512, 512]⟩
abbrev S16x16 : Shape := ⟨2, ![16, 16]⟩
abbrev S16 : Shape := ⟨1, ![16]⟩
abbrev S_ : Shape := ⟨0, ![]⟩

class Facts : Prop where
  bcast_S_S8x16x512x512 : S_.BroadcastsInDim S8x16x512x512 (![] : Fin 0 → Fin S8x16x512x512.rank)
  reducesTo_S8x16x512x512_S_d0_1_2_3 : S8x16x512x512.ReducesTo [0, 1, 2, 3] S_
  h_S_ : 0 < S_.numel
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S8x16x512x512 .f32) (main_arg1 : FVec F S16x16 .f32) (main_arg2 : FVec F S16 .f32) : IVec S_ 1 :=
  let main_v0 : FVec F S8x16x512x512 .f32 := Host.absf main_arg0
  let main_cst : FVec F S_ .f32 := constant S_ .f32 0x7F800000#32
  let main_v1 : FVec F S8x16x512x512 .f32 := broadcastInDim S8x16x512x512 ![] bcast_S_S8x16x512x512 main_cst
  let main_v2 : IVec S8x16x512x512 1 := cmpf .olt main_v0 main_v1
  let main_c : IVec S_ 1 := constantI S_ 1 1#1
  let main_v3 : IVec S_ 1 := (fun x v => Host.reduce IntOp.andi x v reducesTo_S8x16x512x512_S_d0_1_2_3 h_S_) main_v2 main_c
  let main_v4 : FVec F S16x16 .f32 := Host.absf main_arg1
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S8x16x512x512 : Shape := ⟨4, ![8, 16, 512, 512]⟩
abbrev S16x16 : Shape := ⟨2, ![16, 16]⟩
abbrev S16 : Shape := ⟨1, ![16]⟩
abbrev S8x16x262144 : Shape := ⟨3, ![8, 16, 262144]⟩
abbrev S16x1 : Shape := ⟨2, ![16, 1]⟩
abbrev S_ : Shape := ⟨0, ![]⟩
abbrev S16x7 : Shape := ⟨2, ![16, 7]⟩
abbrev S16x24 : Shape := ⟨2, ![16, 24]⟩
abbrev S1x16x32768 : Shape := ⟨3, ![1, 16, 32768]⟩
abbrev S16x32768 : Shape := ⟨2, ![16, 32768]⟩
abbrev S8x16 : Shape := ⟨2, ![8, 16]⟩
abbrev S8x32768 : Shape := ⟨2, ![8, 32768]⟩
abbrev S24x32768 : Shape := ⟨2, ![24, 32768]⟩

abbrev nBuf : Space → Nat
  | .hbm => 10
  | .vmem => 5
  | .smem => 0
  | _ => 0

abbrev bufTy : (tb : Table) → Fin (tcTables nBuf tb) → BufTy
  | .hbm, ⟨0, _⟩ => ⟨S8x16x512x512, .f32⟩
  | .hbm, ⟨1, _⟩ => ⟨S16x16, .f32⟩
  | .hbm, ⟨2, _⟩ => ⟨S16, .f32⟩
  | .hbm, ⟨3, _⟩ => ⟨S8x16x262144, .f32⟩
  | .hbm, ⟨4, _⟩ => ⟨S16x1, .f32⟩
  | .hbm, ⟨5, _⟩ => ⟨S_, .f32⟩
  | .hbm, ⟨6, _⟩ => ⟨S16x7, .f32⟩
  | .hbm, ⟨7, _⟩ => ⟨S16x24, .f32⟩
  | .hbm, ⟨8, _⟩ => ⟨S8x16x262144, .f32⟩
  | .hbm, ⟨9, _⟩ => ⟨S8x16x512x512, .f32⟩
  | .local _ .vmem, ⟨0, _⟩ => ⟨S1x16x32768, .f32⟩
  | .local _ .vmem, ⟨1, _⟩ => ⟨S1x16x32768, .f32⟩
  | .local _ .vmem, ⟨2, _⟩ => ⟨S16x24, .f32⟩
  | .local _ .vmem, ⟨3, _⟩ => ⟨S1x16x32768, .f32⟩
  | .local _ .vmem, ⟨4, _⟩ => ⟨S1x16x32768, .f32⟩
  | _, _ => ⟨S8x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x16x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x16x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8x16x512x512_S8x16x262144 : S8x16x512x512.ShapeCasts S8x16x262144
  shapeCasts_S16_S16x1 : S16.ShapeCasts S16x1
  bcast_S_S16x7 : S_.BroadcastsInDim S16x7 (![] : Fin 0 → Fin S16x7.rank)
  concatenates_S16x16_S16x1_S16x7_S16x24_d1 : Shape.Concatenates [S16x16, S16x1, S16x7] S16x24 1
  inb_S1x16x32768_S1x16x32768_0_0_0 : ∀ a, (![0, 0, 0] : Fin 3 → Nat) a + S1x16x32768.size a ≤ S1x16x32768.size a
  h_S1x16x32768 : 0 < S1x16x32768.numel
  shapeCasts_S1x16x32768_S16x32768 : S1x16x32768.ShapeCasts S16x32768
  bitsLt_bf16_f32 : FTy.bits .bf16 < FTy.bits .f32
  concatenates_S16x32768_S8x32768_S24x32768_d0 : Shape.Concatenates [S16x32768, S8x32768] S24x32768 0
  inb_S16x24_S16x24_0_0 : ∀ a, (![0, 0] : Fin 2 → Nat) a + S16x24.size a ≤ S16x24.size a
  h_S16x24 : 0 < S16x24.numel
  shapeCasts_S16x24_S16x24 : S16x24.ShapeCasts S16x24
  shapeCasts_S16x32768_S1x16x32768 : S16x32768.ShapeCasts S1x16x32768
  shapeCasts_S8x16x262144_S8x16x512x512 : S8x16x262144.ShapeCasts S8x16x512x512
  dot_S8x16_S16x32768_S8x32768_1_0_0_1_n_n_wf : DotDims.WF S8x16 S16x32768 S8x32768 [1] [0] [0] [1] [] []
  dot_S16x24_S24x32768_S16x32768_1_0_0_1_n_n_wf : DotDims.WF S16x24 S24x32768 S16x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x32768.size a ≤ S8x16x262144.size a
  hwx0_0 : ∀ i : grid0.Coords, EltTy.bits .f32 = 32 ∨ (Rect.block (s := S8x16x262144) S1x16x32768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x24.size a ≤ S16x24.size a
  hwx0_1 : ∀ i : grid0.Coords, EltTy.bits .f32 = 32 ∨ (Rect.block (s := S16x24) S16x24.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x32768.size a ≤ S8x16x262144.size a
  hwx0_2 : ∀ i : grid0.Coords, EltTy.bits .f32 = 32 ∨ (Rect.block (s := S8x16x262144) S1x16x32768.size (cc0_transform_2 i) (hinb0_2 i)).WholeWords (EltTy.packing .f32)

variable [Facts₀]

def dot_S8x16_S16x32768_S8x32768_1_0_0_1_n_n : DotDims S8x16 S16x32768 S8x32768 where
  lhsContracting := [1]
  rhsContracting := [0]
  lhsNonContracting := [0]
  rhsNonContracting := [1]
  lhsBatch := []
  rhsBatch := []
  wf := dot_S8x16_S16x32768_S8x32768_1_0_0_1_n_n_wf
def dot_S16x24_S24x32768_S16x32768_1_0_0_1_n_n : DotDims S16x24 S24x32768 S16x32768 where
  lhsContracting := [1]
  rhsContracting := [0]
  lhsNonContracting := [0]
  rhsNonContracting := [1]
  lhsBatch := []
  rhsBatch := []
  wf := dot_S16x24_S24x32768_S16x32768_1_0_0_1_n_n_wf

abbrev win0_0 : Pipeline.Window sig grid0 :=
  Pipeline.Window.ofSpec (Memref.whole main_v0) S1x16x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S16x24.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x16x32768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x16x512x512 : Shape := ⟨4, ![8, 16, 512, 512]⟩
abbrev S16x16 : Shape := ⟨2, ![16, 16]⟩
abbrev S16 : Shape := ⟨1, ![16]⟩
abbrev S8x512x512x16 : Shape := ⟨4, ![8, 512, 512, 16]⟩
abbrev S_ : Shape := ⟨0, ![]⟩
abbrev S8x512x512 : Shape := ⟨3, ![8, 512, 512]⟩
abbrev S1x1x1x16 : Shape := ⟨4, ![1, 1, 1, 16]⟩
abbrev S8x512x512x1 : Shape := ⟨4, ![8, 512, 512, 1]⟩

abbrev nBuf : Space → Nat
  | .hbm => 18
  | .vmem => 0
  | .smem => 0
  | _ => 0

abbrev bufTy : (tb : Table) → Fin (tcTables nBuf tb) → BufTy
  | .hbm, ⟨0, _⟩ => ⟨S8x16x512x512, .f32⟩
  | .hbm, ⟨1, _⟩ => ⟨S16x16, .f32⟩
  | .hbm, ⟨2, _⟩ => ⟨S16, .f32⟩
  | .hbm, ⟨3, _⟩ => ⟨S8x512x512x16, .f32⟩
  | .hbm, ⟨4, _⟩ => ⟨S_, .f32⟩
  | .hbm, ⟨5, _⟩ => ⟨S8x512x512x16, .f32⟩
  | .hbm, ⟨6, _⟩ => ⟨S8x512x512x16, .i1⟩
  | .hbm, ⟨7, _⟩ => ⟨S_, .i1⟩
  | .hbm, ⟨8, _⟩ => ⟨S8x512x512, .i1⟩
  | .hbm, ⟨9, _⟩ => ⟨S8x512x512x16, .f32⟩
  | .hbm, ⟨10, _⟩ => ⟨S1x1x1x16, .f32⟩
  | .hbm, ⟨11, _⟩ => ⟨S8x512x512x16, .f32⟩
  | .hbm, ⟨12, _⟩ => ⟨S8x512x512x16, .f32⟩
  | .hbm, ⟨13, _⟩ => ⟨S8x512x512x1, .i1⟩
  | .hbm, ⟨14, _⟩ => ⟨S8x512x512x1, .f32⟩
  | .hbm, ⟨15, _⟩ => ⟨S8x512x512x16, .f32⟩
  | .hbm, ⟨16, _⟩ => ⟨S8x512x512x16, .f32⟩
  | .hbm, ⟨17, _⟩ => ⟨S8x16x512x512, .f32⟩
  | _, _ => ⟨S8x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  transposes_S8x16x512x512_S8x512x512x16_0_2_3_1 : S8x16x512x512.Transposes [0, 2, 3, 1] S8x512x512x16
  bcast_S_S8x512x512x16 : S_.BroadcastsInDim S8x512x512x16 (![] : Fin 0 → Fin S8x512x512x16.rank)
  reducesTo_S8x512x512x16_S8x512x512_d3 : S8x512x512x16.ReducesTo [3] S8x512x512
  h_S_ : 0 < S_.numel
  bcast_S16_S1x1x1x16_3 : S16.BroadcastsInDim S1x1x1x16 (![3] : Fin 1 → Fin S1x1x1x16.rank)
  bcast_S1x1x1x16_S8x512x512x16_0_1_2_3 : S1x1x1x16.BroadcastsInDim S8x512x512x16 (![0, 1, 2, 3] : Fin 4 → Fin S8x512x512x16.rank)
  bcast_S8x512x512_S8x512x512x1_0_1_2 : S8x512x512.BroadcastsInDim S8x512x512x1 (![0, 1, 2] : Fin 3 → Fin S8x512x512x1.rank)
  bcast_S8x512x512x1_S8x512x512x16_0_1_2_3 : S8x512x512x1.BroadcastsInDim S8x512x512x16 (![0, 1, 2, 3] : Fin 4 → Fin S8x512x512x16.rank)
  transposes_S8x512x512x16_S8x16x512x512_0_3_1_2 : S8x512x512x16.Transposes [0, 3, 1, 2] S8x16x512x512
  dot_S8x512x512x16_S16x16_S8x512x512x16_3_1_012_0_n_n_wf : DotDims.WF S8x512x512x16 S16x16 S8x512x512x16 [3] [1] [0, 1, 2] [0] [] []

variable [Facts₀]

def dot_S8x512x512x16_S16x16_S8x512x512x16_3_1_012_0_n_n : DotDims S8x512x512x16 S16x16 S8x512x512x16 where
  lhsContracting := [3]
  rhsContracting := [1]
  lhsNonContracting := [0, 1, 2]
  rhsNonContracting := [0]
  lhsBatch := []
  rhsBatch := []
  wf := dot_S8x512x512x16_S16x16_S8x512x512x16_3_1_012_0_n_n_wf

class Facts : Prop extends Facts₀ where

variable [Facts]
-- ==== Proof.RunBits.lean ====
/-
  The program runs to its end, and what its arrays hold then.

  @main is five host lines, one pallas_call on an 8 × 8 grid, and one host line. The host lines before the call
  build the call's two operands: the input viewed as [8, 16, 262144] and the 16 × 24 widened weights. At grid
  point (i, j) the call fetches block (i, 0, j) of the input (a [1, 16, 32768] slab), has the whole weight
  array in a buffer it fetched once, and writes back block (i, 0, j) of its result. The body loads the two
  input blocks, computes ONE value from them, and stores it over the whole output block; so what the output
  buffer holds after the body is that value, whatever it held before. Nothing else is touched: no scratch, no
  semaphore of the kernel's own, no transfer.

  From that: every weakly fair execution terminates without a fault; the result array of the call is, block by
  block, the body's value at that block's inputs; the last host line reshapes it; and the three argument
  arrays end as they began, because no host line and no write-back targets them.
-/
import proofs.«141526_g24369644438240_cont_8to1_380_3_alg».proof.Proof.Gen.Kernel.Launch
import proofs.«141526_g24369644438240_cont_8to1_380_3_alg».proof.Proof.Gen.Kernel.Skeleton
import proofs.«141526_g24369644438240_cont_8to1_380_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the call -/

/-- What core `c`'s buffers hold when the call is entered: the launch memory after the five host lines. -/
abbrev entry0 (c : Dev nD) : Valuation τ sig (Elt F) := StableHlo.after (List.flatten [hostOps0]) (fun b => m (c, b))
/-- The same, read at one buffer. -/
abbrev entry (c : Dev nD) (b : Ref sig .tc) : Buf (Elt F) ((c : Thread nD τ).loc b) := entry0 m c (Proc.devRef .tc b)

/-- No host line allocates. -/
theorem prefix_fresh : (hostOps0 : List (HloOp τ sig (Elt F))).Forall fun op => op.fresh = ∅ := by
  simp only [List.Forall]; repeat' constructor
theorem suffix_fresh : (hostOps1 : List (HloOp τ sig (Elt F))).Forall fun op => op.fresh = ∅ := by
  simp only [List.Forall]; repeat' constructor

/-- @main is: the host lines, the call, the last host line; so running it is running the call from `entry` and then
    the last line. -/
theorem main_around (𝒱₀ : Variants) :
    Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-- The last line reads and writes only the call's arrays and buffers the call does not stage. -/
theorem suffix_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)
theorem suffix_fresh' : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp suffix_fresh) op hop
/-- It writes its own result only, which is none of the call's three arrays. -/
theorem suffix_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.reshape_writes, Finset.mem_singleton] <;> exact StableHlo.devRef_ne_of_ne (by decide)

/-! ## The arguments are written by no host line -/

/-- A buffer none of the five host lines writes is found by the call as launched. -/
theorem entry_of_unwritten (c : Dev nD) (b : Ref sig .tc)
    (hb : b ≠ main_v0 ∧ b ≠ main_v1 ∧ b ≠ main_cst ∧ b ≠ main_v2 ∧ b ≠ main_v3) :
    entry m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.nary_writes,
      StableHlo.reshape_writes, Finset.mem_singleton]
    obtain ⟨h0, h1, h2, h3, h4⟩ := hb
    exact ⟨StableHlo.devRef_ne_of_ne h0, StableHlo.devRef_ne_of_ne h1, StableHlo.devRef_ne_of_ne h2,
      StableHlo.devRef_ne_of_ne h3, StableHlo.devRef_ne_of_ne h4⟩))

theorem entry_arg0 (c : Dev nD) : entry m c main_arg0 = m ((c : Thread nD τ).loc main_arg0) :=
  entry_of_unwritten m c main_arg0 (by decide)
theorem entry_arg1 (c : Dev nD) : entry m c main_arg1 = m ((c : Thread nD τ).loc main_arg1) :=
  entry_of_unwritten m c main_arg1 (by decide)
theorem entry_arg2 (c : Dev nD) : entry m c main_arg2 = m ((c : Thread nD τ).loc main_arg2) :=
  entry_of_unwritten m c main_arg2 (by decide)

/-- What the buffers hold after the last host line, given what the call left in its arrays. -/
abbrev final (dats : (p : Fin 1) → (c : Dev nD) → Dat τ (Elt F) Unit ℕ (UR sig nD τ) ℕ (cfgs p) c) (c : Dev nD) (b : Ref sig .tc) :
    Buf (Elt F) ((c : Thread nD τ).loc b) :=
  Pipeline.afterTail₀ cfgs dats 0 (entry0 m) [hostOps1] c b

/-- A buffer that is neither the last line's result nor an array of the call ends as the call found it. -/
theorem final_of_untouched (dats : (p : Fin 1) → (c : Dev nD) → Dat τ (Elt F) Unit ℕ (UR sig nD τ) ℕ (cfgs p) c) (c : Dev nD)
    (b : Ref sig .tc) (h5 : b ≠ main_v5) (harr : ∀ w, Pipeline.arrRef spec0 w ≠ b) :
    final m dats c b = entry m c b := by
  unfold final Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne h5)),
    Pipeline.withArrays_of_ne _ c (entry0 m c) _ b harr]

theorem final_arg0 (dats) (c : Dev nD) : final m dats c main_arg0 = m ((c : Thread nD τ).loc main_arg0) :=
  (final_of_untouched m dats c main_arg0 (by decide) (by decide)).trans (entry_arg0 m c)
theorem final_arg1 (dats) (c : Dev nD) : final m dats c main_arg1 = m ((c : Thread nD τ).loc main_arg1) :=
  (final_of_untouched m dats c main_arg1 (by decide) (by decide)).trans (entry_arg1 m c)
theorem final_arg2 (dats) (c : Dev nD) : final m dats c main_arg2 = m ((c : Thread nD τ).loc main_arg2) :=
  (final_of_untouched m dats c main_arg2 (by decide) (by decide)).trans (entry_arg2 m c)

/-! ## Blocks -/

/-- Window `w`'s block at grid point `t`, cut out of its array as the call finds it. -/
def blk (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The input slab's buffer holds the point's slab whenever the body runs. -/
theorem found_x {c : Dev nD} (dat : Dat τ (Elt F) Unit ℕ (UR sig nD τ) ℕ cfg0 c) (hA : dat.A 0 = entry m c (Pipeline.arrRef spec0 0))
    (hafter : ∀ t, dat.after 0 t = blk m c 0 t) (t : Fin cfg0.N) (d) : dat.before 0 t d = blk m c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- The weights' buffer holds the whole weight array at every point: fetched at the first, left in place since
    (its block index never moves). -/
theorem found_w {c : Dev nD} (dat : Dat τ (Elt F) Unit ℕ (UR sig nD τ) ℕ cfg0 c) (hA : dat.A 1 = entry m c (Pipeline.arrRef spec0 1))
    (hafter : ∀ t, dat.after 1 t = blk m c 1 t) (t : Fin cfg0.N) (d) : dat.before 1 t d = blk m c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The body -/

/-- The whole slab, as a rectangle; -/
abbrev slabAll : Rect S1x16x32768 := Rect.unit (s := S1x16x32768) ![0, 0, 0] S1x16x32768.size inb_S1x16x32768_S1x16x32768_0_0_0
/-- the whole weight array. -/
abbrev wAll : Rect S16x24 := Rect.unit (s := S16x24) ![0, 0] S16x24.size inb_S16x24_S16x24_0_0

/-- What the output buffer holds after the body: its one store, over the whole slab, of the body's value at the two
    loaded blocks. -/
def stored (x0 : Vec F S1x16x32768 .f32) (w0 : Vec F S16x24 .f32) : Vec F S1x16x32768 .f32 :=
  View.canon [⟨slabAll, k0_pay1 (View.ld x0 slabAll) (View.ld w0 wAll)⟩]

/-- That one store covers the buffer. -/
theorem stored_covers (p0 : Vec F S1x16x32768 .f32) (y : S1x16x32768.Idx) :
    ∃ pc ∈ ([⟨slabAll, p0⟩] : List (View.Piece (Elt F) S1x16x32768 .f32)), y ∈ pc.1.set :=
  View.cover_of_tiled [⟨slabAll, p0⟩] S1x16x32768.size (by rfl) y

set_option maxHeartbeats 1000000 in
/-- The body, on whole buffers holding `x0`, `w0` and anything: it ends with the inputs as they were and the output
    at `stored x0 w0`. (It also loads the output buffer before storing; that value is not used.) -/
theorem body_triple (c : Dev nD) (E : Set ℕ) (i : grid0.Coords)
    (arg2 : Memref sig .tc .vmem S1x16x32768 .f32) (harg2 : arg2.IsWhole)
    (arg3 : Memref sig .tc .vmem S16x24 .f32) (harg3 : arg3.IsWhole)
    (arg4 : Memref sig .tc .vmem S1x16x32768 .f32) (harg4 : arg4.IsWhole)
    (x0 : Vec F S1x16x32768 .f32) (w0 : Vec F S16x24 .f32) (K : PUnit → sProp 𝕄) :
    iprop(owns (c : Thread nD τ) arg2 fullShare x0 ∗ owns (c : Thread nD τ) arg3 fullShare w0 ∗ (∃ d, owns (c : Thread nD τ) arg4 fullShare d)
        ∗ (iprop(owns (c : Thread nD τ) arg2 fullShare x0 ∗ owns (c : Thread nD τ) arg3 fullShare w0
            ∗ owns (c : Thread nD τ) arg4 fullShare (stored x0 w0)) -∗ K ⟨⟩))
      ⊢ wp frame (wpE (defs₀ (F := F)) Variants.none c none) E (cc0__spconv_kern i arg2 harg2 arg3 harg3 arg4 harg4) K := by
  simp only [cc0__spconv_kern_eq_skeleton]; unfold cc0__spconv_kern_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_covers _)

/-! ## The call's proof data -/

/-- On core `c`: the arrays as the call finds them; after the body at point `t` the two input buffers still at their
    blocks and the output buffer at `stored` of them; the kernel keeps nothing of its own between points. -/
def pdata (_ : Fin 1) (c : Dev nD) : Dat τ (Elt F) Unit ℕ (UR sig nD τ) ℕ cfg0 c where
  A w := entry m c (Pipeline.arrRef spec0 w)
  after w t := match w with
    | ⟨0, _⟩ => blk m c 0 t
    | ⟨1, _⟩ => blk m c 1 t
    | ⟨2, _⟩ => stored (blk m c 0 t) (blk m c 1 t)
  Φ _ := Pipeline.ΦA spec0 c
  q _ := fullShare
  owed _ := 0

theorem pdata_A (c : Dev nD) (w : Fin cfg0.W) : (pdata m 0 c).A w = entry m c (Pipeline.arrRef spec0 w) := by
  dsimp only [pdata]
theorem pdata_after_x (c : Dev nD) (t : Fin cfg0.N) : (pdata m 0 c).after 0 t = blk m c 0 t := by dsimp only [pdata]
theorem pdata_after_w (c : Dev nD) (t : Fin cfg0.N) : (pdata m 0 c).after 1 t = blk m c 1 t := by dsimp only [pdata]
theorem pdata_after_out (c : Dev nD) (t : Fin cfg0.N) :
    (pdata m 0 c).after 2 t = stored (blk m c 0 t) (blk m c 1 t) := by dsimp only [pdata]

theorem pdata_before_x (c : Dev nD) (t : Fin cfg0.N) (d) : (pdata m 0 c).before 0 t d = blk m c 0 t :=
  found_x m (pdata m 0 c) (pdata_A m c 0) (pdata_after_x m c) t d
theorem pdata_before_w (c : Dev nD) (t : Fin cfg0.N) (d) : (pdata m 0 c).before 1 t d = blk m c 1 t :=
  found_w m (pdata m 0 c) (pdata_A m c 1) (pdata_after_w m c) t d

/-! ## The body at a grid point -/

/-- What the body is handed at point `t`, -/
def handed (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d)))

/-- and what it hands back. -/
def returned (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t))

theorem body_at (c : Dev nD) (t : Fin cfg0.N) :
    handed m c t ⊢ wp frame (wpE (defs₀ (F := F)) Variants.none c none) Set.univ (bodyAt0 t) (fun _ => returned m c t) := by
  unfold handed returned bodyAt0
  simp only [pdata_before_x, pdata_before_w]
  rw [show (pdata m 0 c).Φ t.succ = (pdata m 0 c).Φ t.castSucc from rfl,
    show (pdata m 0 c).owesAt () t.succ = (pdata m 0 c).owesAt () t.castSucc from rfl,
    pdata_after_x, pdata_after_w, pdata_after_out]
  iintro ⟨HΦ, Ho, ⟨%d0, H0⟩, ⟨%d1, H1⟩, ⟨%d2, H2⟩⟩
  iapply (body_triple c Set.univ (grid0.coords t) _ _ _ _ _ _ (blk m c 0 t) (blk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_everywhere (c : Dev nD) : BodyObligation (pdata (F := F) m 0 c) (defs₀ (F := F)) Variants.none () Set.univ := fun t => by
  rw [bigSep_W0, bigSep_W0]
  exact body_at m c t

/-! ## The run -/

set_option backward.isDefEq.respectTransparency.types false in
/-- Every weakly fair execution of @main terminates without a fault; at the end each array of the call holds what the
    write-backs of `pdata` give, and every other buffer what the last host line leaves (`final`). -/
theorem run : θ_run defs (onTc (τ := τ) (main (F := F))) (s₀ m ρ)
    (Pipeline.FramePost cfgs (pdata m) 0 (final m (pdata m))) :=
  Pipeline.θ_run_frame_around cfgs (pdata m) (0 : Fin 1) launch0 defs₀ Variants.none m ρ main
    (hbody := fun c => (body_everywhere m c).loose) (hshare := fun c => (pdata m 0 c).share_full fun _ => rfl)
    (howed := fun _ _ => rfl) (V₀ := entry0 m) (opss := [hostOps1]) (hsub := suffix_sub) (hfresh := suffix_fresh') (hkeep := suffix_keeps)
    (hmain := main_around m Variants.none) (hA := pdata_A m) (hΦ := fun _ _ => rfl)

/-- The three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (final_arg0 m (pdata m) c),
     ((h c).2 main_arg1 (Pipeline.mem_restRefs_of main_arg1 (by decide) (by decide))).trans (final_arg1 m (pdata m) c),
     ((h c).2 main_arg2 (Pipeline.mem_restRefs_of main_arg2 (by decide) (by decide))).trans (final_arg2 m (pdata m) c)⟩) (run m ρ)

end Cert.Kernel.Hand

end
-- ==== Proof.RunIdeal.lean ====
/-
  The program runs to its end, and what its arrays hold then.

  @main is five host lines, one pallas_call on an 8 × 8 grid, and one host line. The host lines before the call
  build the call's two operands: the input viewed as [8, 16, 262144] and the 16 × 24 widened weights. At grid
  point (i, j) the call fetches block (i, 0, j) of the input (a [1, 16, 32768] slab), has the whole weight
  array in a buffer it fetched once, and writes back block (i, 0, j) of its result. The body loads the two
  input blocks, computes ONE value from them, and stores it over the whole output block; so what the output
  buffer holds after the body is that value, whatever it held before. Nothing else is touched: no scratch, no
  semaphore of the kernel's own, no transfer.

  From that: every weakly fair execution terminates without a fault; the result array of the call is, block by
  block, the body's value at that block's inputs; the last host line reshapes it; and the three argument
  arrays end as they began, because no host line and no write-back targets them.
-/
import proofs.«141526_g24369644438240_cont_8to1_380_3_alg».proof.Proof.Gen.KernelIdeal.Launch
import proofs.«141526_g24369644438240_cont_8to1_380_3_alg».proof.Proof.Gen.KernelIdeal.Skeleton
import proofs.«141526_g24369644438240_cont_8to1_380_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the call -/

/-- What core `c`'s buffers hold when the call is entered: the launch memory after the five host lines. -/
abbrev entry0 (c : Dev nD) : Valuation τ sig (Elt F) := StableHlo.after (List.flatten [hostOps0]) (fun b => m (c, b))
/-- The same, read at one buffer. -/
abbrev entry (c : Dev nD) (b : Ref sig .tc) : Buf (Elt F) ((c : Thread nD τ).loc b) := entry0 m c (Proc.devRef .tc b)

/-- No host line allocates. -/
theorem prefix_fresh : (hostOps0 : List (HloOp τ sig (Elt F))).Forall fun op => op.fresh = ∅ := by
  simp only [List.Forall]; repeat' constructor
theorem suffix_fresh : (hostOps1 : List (HloOp τ sig (Elt F))).Forall fun op => op.fresh = ∅ := by
  simp only [List.Forall]; repeat' constructor

/-- @main is: the host lines, the call, the last host line; so running it is running the call from `entry` and then
    the last line. -/
theorem main_around (𝒱₀ : Variants) :
    Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-- The last line reads and writes only the call's arrays and buffers the call does not stage. -/
theorem suffix_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)
theorem suffix_fresh' : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp suffix_fresh) op hop
/-- It writes its own result only, which is none of the call's three arrays. -/
theorem suffix_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.reshape_writes, Finset.mem_singleton] <;> exact StableHlo.devRef_ne_of_ne (by decide)

/-! ## The arguments are written by no host line -/

/-- A buffer none of the five host lines writes is found by the call as launched. -/
theorem entry_of_unwritten (c : Dev nD) (b : Ref sig .tc)
    (hb : b ≠ main_v0 ∧ b ≠ main_v1 ∧ b ≠ main_cst ∧ b ≠ main_v2 ∧ b ≠ main_v3) :
    entry m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.nary_writes,
      StableHlo.reshape_writes, Finset.mem_singleton]
    obtain ⟨h0, h1, h2, h3, h4⟩ := hb
    exact ⟨StableHlo.devRef_ne_of_ne h0, StableHlo.devRef_ne_of_ne h1, StableHlo.devRef_ne_of_ne h2,
      StableHlo.devRef_ne_of_ne h3, StableHlo.devRef_ne_of_ne h4⟩))

theorem entry_arg0 (c : Dev nD) : entry m c main_arg0 = m ((c : Thread nD τ).loc main_arg0) :=
  entry_of_unwritten m c main_arg0 (by decide)
theorem entry_arg1 (c : Dev nD) : entry m c main_arg1 = m ((c : Thread nD τ).loc main_arg1) :=
  entry_of_unwritten m c main_arg1 (by decide)
theorem entry_arg2 (c : Dev nD) : entry m c main_arg2 = m ((c : Thread nD τ).loc main_arg2) :=
  entry_of_unwritten m c main_arg2 (by decide)

/-- What the buffers hold after the last host line, given what the call left in its arrays. -/
abbrev final (dats : (p : Fin 1) → (c : Dev nD) → Dat τ (Elt F) Unit ℕ (UR sig nD τ) ℕ (cfgs p) c) (c : Dev nD) (b : Ref sig .tc) :
    Buf (Elt F) ((c : Thread nD τ).loc b) :=
  Pipeline.afterTail₀ cfgs dats 0 (entry0 m) [hostOps1] c b

/-- A buffer that is neither the last line's result nor an array of the call ends as the call found it. -/
theorem final_of_untouched (dats : (p : Fin 1) → (c : Dev nD) → Dat τ (Elt F) Unit ℕ (UR sig nD τ) ℕ (cfgs p) c) (c : Dev nD)
    (b : Ref sig .tc) (h5 : b ≠ main_v5) (harr : ∀ w, Pipeline.arrRef spec0 w ≠ b) :
    final m dats c b = entry m c b := by
  unfold final Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne h5)),
    Pipeline.withArrays_of_ne _ c (entry0 m c) _ b harr]

theorem final_arg0 (dats) (c : Dev nD) : final m dats c main_arg0 = m ((c : Thread nD τ).loc main_arg0) :=
  (final_of_untouched m dats c main_arg0 (by decide) (by decide)).trans (entry_arg0 m c)
theorem final_arg1 (dats) (c : Dev nD) : final m dats c main_arg1 = m ((c : Thread nD τ).loc main_arg1) :=
  (final_of_untouched m dats c main_arg1 (by decide) (by decide)).trans (entry_arg1 m c)
theorem final_arg2 (dats) (c : Dev nD) : final m dats c main_arg2 = m ((c : Thread nD τ).loc main_arg2) :=
  (final_of_untouched m dats c main_arg2 (by decide) (by decide)).trans (entry_arg2 m c)

/-! ## Blocks -/

/-- Window `w`'s block at grid point `t`, cut out of its array as the call finds it. -/
def blk (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The input slab's buffer holds the point's slab whenever the body runs. -/
theorem found_x {c : Dev nD} (dat : Dat τ (Elt F) Unit ℕ (UR sig nD τ) ℕ cfg0 c) (hA : dat.A 0 = entry m c (Pipeline.arrRef spec0 0))
    (hafter : ∀ t, dat.after 0 t = blk m c 0 t) (t : Fin cfg0.N) (d) : dat.before 0 t d = blk m c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- The weights' buffer holds the whole weight array at every point: fetched at the first, left in place since
    (its block index never moves). -/
theorem found_w {c : Dev nD} (dat : Dat τ (Elt F) Unit ℕ (UR sig nD τ) ℕ cfg0 c) (hA : dat.A 1 = entry m c (Pipeline.arrRef spec0 1))
    (hafter : ∀ t, dat.after 1 t = blk m c 1 t) (t : Fin cfg0.N) (d) : dat.before 1 t d = blk m c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The body -/

/-- The whole slab, as a rectangle; -/
abbrev slabAll : Rect S1x16x32768 := Rect.unit (s := S1x16x32768) ![0, 0, 0] S1x16x32768.size inb_S1x16x32768_S1x16x32768_0_0_0
/-- the whole weight array. -/
abbrev wAll : Rect S16x24 := Rect.unit (s := S16x24) ![0, 0] S16x24.size inb_S16x24_S16x24_0_0

/-- What the output buffer holds after the body: its one store, over the whole slab, of the body's value at the two
    loaded blocks. -/
def stored (x0 : Vec F S1x16x32768 .f32) (w0 : Vec F S16x24 .f32) : Vec F S1x16x32768 .f32 :=
  View.canon [⟨slabAll, k0_pay1 (View.ld x0 slabAll) (View.ld w0 wAll)⟩]

/-- That one store covers the buffer. -/
theorem stored_covers (p0 : Vec F S1x16x32768 .f32) (y : S1x16x32768.Idx) :
    ∃ pc ∈ ([⟨slabAll, p0⟩] : List (View.Piece (Elt F) S1x16x32768 .f32)), y ∈ pc.1.set :=
  View.cover_of_tiled [⟨slabAll, p0⟩] S1x16x32768.size (by rfl) y

set_option maxHeartbeats 1000000 in
/-- The body, on whole buffers holding `x0`, `w0` and anything: it ends with the inputs as they were and the output
    at `stored x0 w0`. (It also loads the output buffer before storing; that value is not used.) -/
theorem body_triple (c : Dev nD) (E : Set ℕ) (i : grid0.Coords)
    (arg2 : Memref sig .tc .vmem S1x16x32768 .f32) (harg2 : arg2.IsWhole)
    (arg3 : Memref sig .tc .vmem S16x24 .f32) (harg3 : arg3.IsWhole)
    (arg4 : Memref sig .tc .vmem S1x16x32768 .f32) (harg4 : arg4.IsWhole)
    (x0 : Vec F S1x16x32768 .f32) (w0 : Vec F S16x24 .f32) (K : PUnit → sProp 𝕄) :
    iprop(owns (c : Thread nD τ) arg2 fullShare x0 ∗ owns (c : Thread nD τ) arg3 fullShare w0 ∗ (∃ d, owns (c : Thread nD τ) arg4 fullShare d)
        ∗ (iprop(owns (c : Thread nD τ) arg2 fullShare x0 ∗ owns (c : Thread nD τ) arg3 fullShare w0
            ∗ owns (c : Thread nD τ) arg4 fullShare (stored x0 w0)) -∗ K ⟨⟩))
      ⊢ wp frame (wpE (defs₀ (F := F)) Variants.none c none) E (cc0__spconv_kern i arg2 harg2 arg3 harg3 arg4 harg4) K := by
  simp only [cc0__spconv_kern_eq_skeleton]; unfold cc0__spconv_kern_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_covers _)

/-! ## The call's proof data -/

/-- On core `c`: the arrays as the call finds them; after the body at point `t` the two input buffers still at their
    blocks and the output buffer at `stored` of them; the kernel keeps nothing of its own between points. -/
def pdata (_ : Fin 1) (c : Dev nD) : Dat τ (Elt F) Unit ℕ (UR sig nD τ) ℕ cfg0 c where
  A w := entry m c (Pipeline.arrRef spec0 w)
  after w t := match w with
    | ⟨0, _⟩ => blk m c 0 t
    | ⟨1, _⟩ => blk m c 1 t
    | ⟨2, _⟩ => stored (blk m c 0 t) (blk m c 1 t)
  Φ _ := Pipeline.ΦA spec0 c
  q _ := fullShare
  owed _ := 0

theorem pdata_A (c : Dev nD) (w : Fin cfg0.W) : (pdata m 0 c).A w = entry m c (Pipeline.arrRef spec0 w) := by
  dsimp only [pdata]
theorem pdata_after_x (c : Dev nD) (t : Fin cfg0.N) : (pdata m 0 c).after 0 t = blk m c 0 t := by dsimp only [pdata]
theorem pdata_after_w (c : Dev nD) (t : Fin cfg0.N) : (pdata m 0 c).after 1 t = blk m c 1 t := by dsimp only [pdata]
theorem pdata_after_out (c : Dev nD) (t : Fin cfg0.N) :
    (pdata m 0 c).after 2 t = stored (blk m c 0 t) (blk m c 1 t) := by dsimp only [pdata]

theorem pdata_before_x (c : Dev nD) (t : Fin cfg0.N) (d) : (pdata m 0 c).before 0 t d = blk m c 0 t :=
  found_x m (pdata m 0 c) (pdata_A m c 0) (pdata_after_x m c) t d
theorem pdata_before_w (c : Dev nD) (t : Fin cfg0.N) (d) : (pdata m 0 c).before 1 t d = blk m c 1 t :=
  found_w m (pdata m 0 c) (pdata_A m c 1) (pdata_after_w m c) t d

/-! ## The body at a grid point -/

/-- What the body is handed at point `t`, -/
def handed (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d)))

/-- and what it hands back. -/
def returned (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t))

theorem body_at (c : Dev nD) (t : Fin cfg0.N) :
    handed m c t ⊢ wp frame (wpE (defs₀ (F := F)) Variants.none c none) Set.univ (bodyAt0 t) (fun _ => returned m c t) := by
  unfold handed returned bodyAt0
  simp only [pdata_before_x, pdata_before_w]
  rw [show (pdata m 0 c).Φ t.succ = (pdata m 0 c).Φ t.castSucc from rfl,
    show (pdata m 0 c).owesAt () t.succ = (pdata m 0 c).owesAt () t.castSucc from rfl,
    pdata_after_x, pdata_after_w, pdata_after_out]
  iintro ⟨HΦ, Ho, ⟨%d0, H0⟩, ⟨%d1, H1⟩, ⟨%d2, H2⟩⟩
  iapply (body_triple c Set.univ (grid0.coords t) _ _ _ _ _ _ (blk m c 0 t) (blk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_everywhere (c : Dev nD) : BodyObligation (pdata (F := F) m 0 c) (defs₀ (F := F)) Variants.none () Set.univ := fun t => by
  rw [bigSep_W0, bigSep_W0]
  exact body_at m c t

/-! ## The run -/

set_option backward.isDefEq.respectTransparency.types false in
/-- Every weakly fair execution of @main terminates without a fault; at the end each array of the call holds what the
    write-backs of `pdata` give, and every other buffer what the last host line leaves (`final`). -/
theorem run : θ_run defs (onTc (τ := τ) (main (F := F))) (s₀ m ρ)
    (Pipeline.FramePost cfgs (pdata m) 0 (final m (pdata m))) :=
  Pipeline.θ_run_frame_around cfgs (pdata m) (0 : Fin 1) launch0 defs₀ Variants.none m ρ main
    (hbody := fun c => (body_everywhere m c).loose) (hshare := fun c => (pdata m 0 c).share_full fun _ => rfl)
    (howed := fun _ _ => rfl) (V₀ := entry0 m) (opss := [hostOps1]) (hsub := suffix_sub) (hfresh := suffix_fresh') (hkeep := suffix_keeps)
    (hmain := main_around m Variants.none) (hA := pdata_A m) (hΦ := fun _ _ => rfl)

/-- The three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (final_arg0 m (pdata m) c),
     ((h c).2 main_arg1 (Pipeline.mem_restRefs_of main_arg1 (by decide) (by decide))).trans (final_arg1 m (pdata m) c),
     ((h c).2 main_arg2 (Pipeline.mem_restRefs_of main_arg2 (by decide) (by decide))).trans (final_arg2 m (pdata m) c)⟩) (run m ρ)

end Cert.KernelIdeal.Hand

end
-- ==== Proof.Spec.lean ====
/-
  What a 1×1 sparse convolution computes at one spatial site, in the two arrangements the two programs use.

  At a site (image n, row h, column w) let xs be the sixteen input channels there, ws the sixteen weights of output
  channel o and b its bias. The site is ACTIVE when some channel is not zero.

  * The reference arrangement: the affine value  (Σₖ xs k · ws k + b), times 1 at an active site and 0 elsewhere.
  * The kernel's arrangement: ONE contraction of length 24. The weight row is widened by the bias and seven zeros,
    the channel column by eight copies of the site's activity flag, and the flag itself is "the sum of the channels'
    absolute values is positive".

  Both are stated over plain functions on `Fin 16` / `Fin 24`, and then as whole arrays over the literal shapes.
-/
import Idealize.ShloMosaic.PureOps.Ideal.Laws
import Idealize.ShloMosaic.Lib.ValueIdx

noncomputable section

namespace Cert.SpConv

open Idealize.ShloMosaic Idealize.ShloMosaic.ValueIdx
open scoped BigOperators

/-- The input and output arrays: images × channels × rows × columns. -/
abbrev SX : Shape := ⟨4, ![8, 16, 512, 512]⟩
/-- The weights: output channel × input channel. -/
abbrev SW : Shape := ⟨2, ![16, 16]⟩
/-- The bias: one entry per output channel. -/
abbrev SB : Shape := ⟨1, ![16]⟩

/-! ## One site -/

/-- The reference's activity flag: 1 when some channel differs from zero, else 0. -/
def active (xs : Fin 16 → EReal) : EReal := if ∃ k, xs k ≠ 0 then 1 else 0

/-- The reference's value at a site: the affine map of the channels, kept at an active site, zeroed elsewhere. -/
def siteRef (xs ws : Fin 16 → EReal) (b : EReal) : EReal := (∑ k : Fin 16, xs k * ws k + b) * active xs

/-- The kernel's activity flag: 1 when the channels' absolute values add up to something positive, else 0. -/
def flagK (xs : Fin 16 → EReal) : EReal := if (0 : EReal) < ∑ c : Fin 16, max (xs c) (-(xs c)) then 1 else 0

/-- The kernel's widened channel column: the sixteen channels, then the flag eight times. -/
def colK (xs : Fin 16 → EReal) (k : Fin 24) : EReal := if h : k.val < 16 then xs ⟨k.val, h⟩ else flagK xs

/-- The kernel's widened weight row: the sixteen weights, the bias in place 16, zeros in places 17 to 23. -/
def rowK (ws : Fin 16 → EReal) (b : EReal) (k : Fin 24) : EReal :=
  if h : k.val < 16 then ws ⟨k.val, h⟩ else if k.val = 16 then b else 0

/-- The kernel's value at a site, for ANY row of 24: the contraction of the row with the widened column. -/
def siteKer (xs : Fin 16 → EReal) (row : Fin 24 → EReal) : EReal := ∑ k : Fin 24, row k * colK xs k

/-! ## The whole arrays -/

/-- The channels of `x` at a site. -/
def chans (x : SX.Idx → EReal) (n : Fin 8) (h w : Fin 512) : Fin 16 → EReal := fun k => x (ix4 n k h w)
/-- The weights of output channel `o`. -/
def wts (W : SW.Idx → EReal) (o : Fin 16) : Fin 16 → EReal := fun k => W (ix2 o k)

/-- The reference arrangement at explicit coordinates. -/
def refAt (x : SX.Idx → EReal) (W : SW.Idx → EReal) (b : SB.Idx → EReal) (n : Fin 8) (o : Fin 16) (h w : Fin 512) : EReal :=
  siteRef (chans x n h w) (wts W o) (b (ix1 o))
/-- The kernel's arrangement at explicit coordinates. -/
def kerAt (x : SX.Idx → EReal) (W : SW.Idx → EReal) (b : SB.Idx → EReal) (n : Fin 8) (o : Fin 16) (h w : Fin 512) : EReal :=
  siteKer (chans x n h w) (rowK (wts W o) (b (ix1 o)))

/-- The reference arrangement as an array. -/
def outRef (x : SX.Idx → EReal) (W : SW.Idx → EReal) (b : SB.Idx → EReal) : SX.Idx → EReal := fun i =>
  refAt x W b ⟨(i 0).val, (i 0).isLt⟩ ⟨(i 1).val, (i 1).isLt⟩ ⟨(i 2).val, (i 2).isLt⟩ ⟨(i 3).val, (i 3).isLt⟩
/-- The kernel's arrangement as an array. -/
def outKer (x : SX.Idx → EReal) (W : SW.Idx → EReal) (b : SB.Idx → EReal) : SX.Idx → EReal := fun i =>
  kerAt x W b ⟨(i 0).val, (i 0).isLt⟩ ⟨(i 1).val, (i 1).isLt⟩ ⟨(i 2).val, (i 2).isLt⟩ ⟨(i 3).val, (i 3).isLt⟩

theorem outRef_ix4 (x : SX.Idx → EReal) (W : SW.Idx → EReal) (b : SB.Idx → EReal) (n : Fin 8) (o : Fin 16) (h w : Fin 512) :
    outRef x W b (ix4 n o h w) = refAt x W b n o h w := rfl
theorem outKer_ix4 (x : SX.Idx → EReal) (W : SW.Idx → EReal) (b : SB.Idx → EReal) (n : Fin 8) (o : Fin 16) (h w : Fin 512) :
    outKer x W b (ix4 n o h w) = kerAt x W b n o h w := rfl

end Cert.SpConv

end
-- ==== Proof.Operands.lean ====
/-
  What the call's two operand arrays hold, entry by entry, in terms of the program's arguments.

  The first operand is the input with its two spatial axes run together: entry (n, k, p) of the [8, 16, 262144]
  array is entry (n, k, p / 512, p % 512) of the input. The second is the 16 × 24 widened weight array, three
  pieces side by side along the columns: the 16 × 16 weights, the bias stood up as a 16 × 1 column, and a 16 × 7
  block of zeros. So row o reads: the weights of output channel o in columns 0 to 15, its bias in column 16, and
  zero in columns 17 to 23.
-/
import proofs.«141526_g24369644438240_cont_8to1_380_3_alg».proof.Proof.RunIdeal
import proofs.«141526_g24369644438240_cont_8to1_380_3_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.HandValue

open Cert.KernelIdeal Cert.KernelIdeal.Gen Cert.KernelIdeal.Hand Cert.SpConv
open Idealize.ShloMosaic Idealize.ShloMosaic.TcCoe Idealize.SL.Sem Idealize.ShloMosaic.StableHlo Idealize.ShloMosaic.ValueIdx

/-- The widening line — three operands laid side by side along the columns — read with each operand's contents at
    that operand's own buffer, whatever the buffers hold when it runs. -/
theorem widen_result (hxs hy) (R : Valuation τ sig (Elt Ideal)) :
    (nary (τ := τ) ![main_arg1, main_v1, main_v2] main_v3
        (fun u => concatenate S16x24 1 [⟨S16x16, u 0⟩, ⟨S16x1, u 1⟩, ⟨S16x7, u 2⟩] concatenates_S16x16_S16x1_S16x7_S16x24_d1)
        hxs hy).result R (Proc.devRef .tc main_v3)
      = concatenate S16x24 1 [⟨S16x16, R (Proc.devRef .tc main_arg1)⟩, ⟨S16x1, R (Proc.devRef .tc main_v1)⟩,
          ⟨S16x7, R (Proc.devRef .tc main_v2)⟩] concatenates_S16x16_S16x1_S16x7_S16x24_d1 :=
  (nary_result _ _ _ hxs hy R).trans rfl

variable (m : (ℓ : Loc nD τ sig) → Buf (Elt Ideal) ℓ)

/-- The three arguments on core `c`, as plain arrays of extended reals. -/
abbrev xArr (c : Dev nD) : SX.Idx → EReal := m ((c : Thread nD τ).loc main_arg0)
abbrev wArr (c : Dev nD) : SW.Idx → EReal := m ((c : Thread nD τ).loc main_arg1)
abbrev bArr (c : Dev nD) : SB.Idx → EReal := m ((c : Thread nD τ).loc main_arg2)

/-! ## The first operand -/

theorem entry_v0 (c : Dev nD) :
    (entry m c main_v0 : S8x16x262144.Idx → EReal) = shapeCast S8x16x262144 (xArr m c) shapeCasts_S8x16x512x512_S8x16x262144 := by
  show StableHlo.after hostOps0 (fun b => m (c, b)) (Proc.devRef .tc main_v0) = _
  after_results
  rfl

theorem entry_v0_at (c : Dev nD) (n : Fin 8) (k : Fin 16) (p : Fin 262144) :
    (entry m c main_v0 : S8x16x262144.Idx → EReal) (ix3 n k p)
      = xArr m c (ix4 n k (⟨p.val / 512, by omega⟩ : Fin 512) (⟨p.val % 512, by omega⟩ : Fin 512)) := by
  refine (congrFun (entry_v0 m c) _).trans ?_
  refine shapeCast_apply _ _ _ _ ?_
  rw [Shape.rowMajor_val_four, Shape.rowMajor_val_three]
  show ((n.val * 16 + k.val) * 512 + p.val / 512) * 512 + p.val % 512 = (n.val * 16 + k.val) * 262144 + p.val
  omega

/-! ## The second operand -/

/-- Its three pieces: the weights, the bias as a column, a block of zeros. -/
abbrev pieces (c : Dev nD) : List ((s : Shape) × (s.Idx → EReal)) :=
  [⟨S16x16, wArr m c⟩, ⟨S16x1, shapeCast S16x1 (bArr m c) shapeCasts_S16_S16x1⟩,
    ⟨S16x7, broadcastInDim S16x7 ![] bcast_S_S16x7 (constant (F := Ideal) S_ .f32 0x00000000#32)⟩]

theorem entry_v3 (c : Dev nD) :
    (entry m c main_v3 : S16x24.Idx → EReal) =
      concatenate S16x24 1 (pieces m c) concatenates_S16x16_S16x1_S16x7_S16x24_d1 := by
  show StableHlo.after hostOps0 (fun b => m (c, b)) (Proc.devRef .tc main_v3) = _
  simp only [after_cons, after_nil]
  rw [widen_result]
  repeat (first
    | rw [nullary_result] | rw [unary_result] | rw [reshape_result]
    | (rw [nullary_result_ne]; rotate_left; decide)
    | (rw [unary_result_ne]; rotate_left; decide)
    | (rw [reshape_result_ne]; rotate_left; decide))
  rfl

/-- Row `o` of the widened weights: the weights, the bias, zeros. -/
theorem entry_v3_at (c : Dev nD) (o : Fin 16) (k : Fin 24) :
    (entry m c main_v3 : S16x24.Idx → EReal) (ix2 o k) = rowK (wts (wArr m c) o) (bArr m c (ix1 o)) k := by
  refine (congrFun (entry_v3 m c) _).trans ?_
  unfold rowK
  by_cases h : k.val < 16
  · rw [dif_pos h]
    refine (concatenate_apply_piece (t := S16x24) (1 : Fin 2) (pieces m c) concatenates_S16x16_S16x1_S16x7_S16x24_d1 (ix2 o k) 0 (Nat.zero_lt_succ _) S16x16 (wArr m c) rfl rfl 0 rfl
      (ix2 o (⟨k.val, h⟩ : Fin 16)) ?_ ?_).trans rfl
    · intro b hb
      match b with
      | ⟨0, _⟩ => rfl
      | ⟨1, _⟩ => exact absurd rfl hb
    · show 0 + k.val = k.val
      omega
  · rw [dif_neg h]
    by_cases h16 : k.val = 16
    · rw [if_pos h16]
      refine (concatenate_apply_piece (t := S16x24) (1 : Fin 2) (pieces m c) concatenates_S16x16_S16x1_S16x7_S16x24_d1 (ix2 o k) 1 (Nat.succ_lt_succ (Nat.zero_lt_succ _)) S16x1
        (shapeCast S16x1 (bArr m c) shapeCasts_S16_S16x1) rfl rfl 16 rfl (ix2 o (0 : Fin 1)) ?_ ?_).trans ?_
      · intro b hb
        match b with
        | ⟨0, _⟩ => rfl
        | ⟨1, _⟩ => exact absurd rfl hb
      · show 16 + 0 = k.val
        omega
      · refine shapeCast_apply _ _ _ _ ?_
        rw [Shape.rowMajor_val_one, Shape.rowMajor_val_two]
        show o.val = o.val * 1 + 0
        omega
    · rw [if_neg h16]
      have hk : k.val < 24 := k.isLt
      refine (concatenate_apply_piece (t := S16x24) (1 : Fin 2) (pieces m c) concatenates_S16x16_S16x1_S16x7_S16x24_d1 (ix2 o k) 2 (Nat.succ_lt_succ (Nat.succ_lt_succ (Nat.zero_lt_succ _))) S16x7
        (broadcastInDim S16x7 ![] bcast_S_S16x7 (constant (F := Ideal) S_ .f32 0x00000000#32)) rfl rfl 17 rfl
        (ix2 o (⟨k.val - 17, by omega⟩ : Fin 7)) ?_ ?_).trans ?_
      · intro b hb
        match b with
        | ⟨0, _⟩ => rfl
        | ⟨1, _⟩ => exact absurd rfl hb
      · show 17 + (k.val - 17) = k.val
        omega
      · refine (broadcastInDim_apply _ bcast_S_S16x7 _ _ ix0 (fun a => a.elim0)).trans ?_
        show Ideal.ofBits .f32 0x00000000#32 = 0
        exact Ideal.ofBits_zero_f32

end Cert.KernelIdeal.HandValue

end
-- ==== Proof.Payload.lean ====
import proofs.«141526_g24369644438240_cont_8to1_380_3_alg».proof.Proof.Gen.KernelIdeal.Skeleton
import proofs.«141526_g24369644438240_cont_8to1_380_3_alg».proof.Proof.Spec
import Idealize.ShloMosaic.Lib.Pipeline.Value
import Idealize.ShloMosaic.Lib.ValueLayout
import Idealize.ShloMosaic.Lib.IdealHost

noncomputable section

namespace Cert.SpConv.Payload

open Idealize.ShloMosaic Idealize.ShloMosaic.ValueIdx Cert.SpConv Cert.KernelIdeal Cert.KernelIdeal.Gen
open scoped BigOperators

/-! ## The first product: eight rows of ones against the sixteen absolute values of a lane -/

theorem lhs_ones_0 (i : S8x32768.Idx) (q : dot_S8x16_S16x32768_S8x32768_1_0_0_1_n_n.contr.Idx) :
    (dot_S8x16_S16x32768_S8x32768_1_0_0_1_n_n.lhsIdx i q 0).val = (i 0).val := by
  unfold DotDims.lhsIdx
  rw [dif_neg (show ¬(0 : Fin S8x16.rank) ∈ dot_S8x16_S16x32768_S8x32768_1_0_0_1_n_n.lhsBatch by decide), dif_pos (show (0 : Fin S8x16.rank) ∈ dot_S8x16_S16x32768_S8x32768_1_0_0_1_n_n.lhsNonContracting by decide)]
  rfl
theorem lhs_ones_1 (i : S8x32768.Idx) (q : dot_S8x16_S16x32768_S8x32768_1_0_0_1_n_n.contr.Idx) :
    (dot_S8x16_S16x32768_S8x32768_1_0_0_1_n_n.lhsIdx i q 1).val = (q ⟨0, by decide⟩).val :=
  dot_S8x16_S16x32768_S8x32768_1_0_0_1_n_n.lhsIdx_val_of_single rfl i q
theorem rhs_ones_0 (i : S8x32768.Idx) (q : dot_S8x16_S16x32768_S8x32768_1_0_0_1_n_n.contr.Idx) :
    (dot_S8x16_S16x32768_S8x32768_1_0_0_1_n_n.rhsIdx i q 0).val = (q ⟨0, by decide⟩).val :=
  dot_S8x16_S16x32768_S8x32768_1_0_0_1_n_n.rhsIdx_val_of_single rfl i q
theorem rhs_ones_1 (i : S8x32768.Idx) (q : dot_S8x16_S16x32768_S8x32768_1_0_0_1_n_n.contr.Idx) :
    (dot_S8x16_S16x32768_S8x32768_1_0_0_1_n_n.rhsIdx i q 1).val = (i 1).val := by
  unfold DotDims.rhsIdx
  rw [dif_neg (show ¬(1 : Fin S16x32768.rank) ∈ dot_S8x16_S16x32768_S8x32768_1_0_0_1_n_n.rhsBatch by decide), dif_pos (show (1 : Fin S16x32768.rank) ∈ dot_S8x16_S16x32768_S8x32768_1_0_0_1_n_n.rhsNonContracting by decide)]
  rfl

/-- The first product into a zero accumulator, read at row `r` and lane `q`: the sum over the sixteen
    contracted places of the left entry of row `r` times the right entry of lane `q`. -/
theorem mm_ones_apply (a : FVec Ideal S8x16 .bf16) (b : FVec Ideal S16x32768 .bf16) (r : Fin 8) (q : Fin 32768) :
    matmul dot_S8x16_S16x32768_S8x32768_1_0_0_1_n_n none a b (constant (F := Ideal) S8x32768 .f32 0x00000000#32) (ix2 r q)
      = ∑ k : Fin 16, a (ix2 r k) * b (ix2 k q) := by
  simp only [matmul]
  rw [Ideal.matmul_constant_zero_apply, ← Equiv.sum_comp (contrEquiv1 dot_S8x16_S16x32768_S8x32768_1_0_0_1_n_n 16 rfl rfl).symm]
  refine Finset.sum_congr rfl fun k _ => ?_
  have hk := contrEquiv1_symm_val dot_S8x16_S16x32768_S8x32768_1_0_0_1_n_n 16 rfl rfl k
  have el : dot_S8x16_S16x32768_S8x32768_1_0_0_1_n_n.lhsIdx (ix2 r q) ((contrEquiv1 dot_S8x16_S16x32768_S8x32768_1_0_0_1_n_n 16 rfl rfl).symm k) = ix2 r k := funext fun c => Fin.ext (by
    match c with
    | ⟨0, _⟩ => exact lhs_ones_0 _ _
    | ⟨1, _⟩ => exact (lhs_ones_1 _ _).trans hk)
  have er : dot_S8x16_S16x32768_S8x32768_1_0_0_1_n_n.rhsIdx (ix2 r q) ((contrEquiv1 dot_S8x16_S16x32768_S8x32768_1_0_0_1_n_n 16 rfl rfl).symm k) = ix2 k q := funext fun c => Fin.ext (by
    match c with
    | ⟨0, _⟩ => exact (rhs_ones_0 _ _).trans hk
    | ⟨1, _⟩ => exact rhs_ones_1 _ _)
  rw [el, er]

/-! ## The second product: a row of twenty-four against the widened column of a lane -/

theorem lhs_row_0 (i : S16x32768.Idx) (q : dot_S16x24_S24x32768_S16x32768_1_0_0_1_n_n.contr.Idx) :
    (dot_S16x24_S24x32768_S16x32768_1_0_0_1_n_n.lhsIdx i q 0).val = (i 0).val := by
  unfold DotDims.lhsIdx
  rw [dif_neg (show ¬(0 : Fin S16x24.rank) ∈ dot_S16x24_S24x32768_S16x32768_1_0_0_1_n_n.lhsBatch by decide), dif_pos (show (0 : Fin S16x24.rank) ∈ dot_S16x24_S24x32768_S16x32768_1_0_0_1_n_n.lhsNonContracting by decide)]
  rfl
theorem lhs_row_1 (i : S16x32768.Idx) (q : dot_S16x24_S24x32768_S16x32768_1_0_0_1_n_n.contr.Idx) :
    (dot_S16x24_S24x32768_S16x32768_1_0_0_1_n_n.lhsIdx i q 1).val = (q ⟨0, by decide⟩).val :=
  dot_S16x24_S24x32768_S16x32768_1_0_0_1_n_n.lhsIdx_val_of_single rfl i q
theorem rhs_row_0 (i : S16x32768.Idx) (q : dot_S16x24_S24x32768_S16x32768_1_0_0_1_n_n.contr.Idx) :
    (dot_S16x24_S24x32768_S16x32768_1_0_0_1_n_n.rhsIdx i q 0).val = (q ⟨0, by decide⟩).val :=
  dot_S16x24_S24x32768_S16x32768_1_0_0_1_n_n.rhsIdx_val_of_single rfl i q
theorem rhs_row_1 (i : S16x32768.Idx) (q : dot_S16x24_S24x32768_S16x32768_1_0_0_1_n_n.contr.Idx) :
    (dot_S16x24_S24x32768_S16x32768_1_0_0_1_n_n.rhsIdx i q 1).val = (i 1).val := by
  unfold DotDims.rhsIdx
  rw [dif_neg (show ¬(1 : Fin S24x32768.rank) ∈ dot_S16x24_S24x32768_S16x32768_1_0_0_1_n_n.rhsBatch by decide), dif_pos (show (1 : Fin S24x32768.rank) ∈ dot_S16x24_S24x32768_S16x32768_1_0_0_1_n_n.rhsNonContracting by decide)]
  rfl

/-- The second product into a zero accumulator, read at output channel `o` and lane `q`: the sum over the
    twenty-four contracted places of the row entry times the column entry. -/
theorem mm_row_apply (a : FVec Ideal S16x24 .f32) (b : FVec Ideal S24x32768 .f32) (o : Fin 16) (q : Fin 32768) :
    matmul dot_S16x24_S24x32768_S16x32768_1_0_0_1_n_n none a b (constant (F := Ideal) S16x32768 .f32 0x00000000#32) (ix2 o q)
      = ∑ k : Fin 24, a (ix2 o k) * b (ix2 k q) := by
  simp only [matmul]
  rw [Ideal.matmul_constant_zero_apply, ← Equiv.sum_comp (contrEquiv1 dot_S16x24_S24x32768_S16x32768_1_0_0_1_n_n 24 rfl rfl).symm]
  refine Finset.sum_congr rfl fun k _ => ?_
  have hk := contrEquiv1_symm_val dot_S16x24_S24x32768_S16x32768_1_0_0_1_n_n 24 rfl rfl k
  have el : dot_S16x24_S24x32768_S16x32768_1_0_0_1_n_n.lhsIdx (ix2 o q) ((contrEquiv1 dot_S16x24_S24x32768_S16x32768_1_0_0_1_n_n 24 rfl rfl).symm k) = ix2 o k := funext fun c => Fin.ext (by
    match c with
    | ⟨0, _⟩ => exact lhs_row_0 _ _
    | ⟨1, _⟩ => exact (lhs_row_1 _ _).trans hk)
  have er : dot_S16x24_S24x32768_S16x32768_1_0_0_1_n_n.rhsIdx (ix2 o q) ((contrEquiv1 dot_S16x24_S24x32768_S16x32768_1_0_0_1_n_n 24 rfl rfl).symm k) = ix2 k q := funext fun c => Fin.ext (by
    match c with
    | ⟨0, _⟩ => exact (rhs_row_0 _ _).trans hk
    | ⟨1, _⟩ => exact rhs_row_1 _ _)
  rw [el, er]

/-! ## The widened column: sixteen channels on top of eight rows of flags -/

/-- Above place 16 the stacked array reads the upper piece. -/
theorem cat_top (u : FVec Ideal S16x32768 .f32) (f : FVec Ideal S8x32768 .f32) (k : Fin 16) (q : Fin 32768) :
    concatenate S24x32768 0 [⟨S16x32768, u⟩, ⟨S8x32768, f⟩] concatenates_S16x32768_S8x32768_S24x32768_d0
        (ix2 (⟨k.val, by omega⟩ : Fin 24) q) = u (ix2 k q) :=
  concatenate_pair_apply_left (0 : Fin S24x32768.rank) u f concatenates_S16x32768_S8x32768_S24x32768_d0 _ rfl (ix2 k q)
    (fun b => match b with | ⟨0, _⟩ => rfl | ⟨1, _⟩ => rfl)

/-- From place 16 on it reads the lower piece, sixteen places up. -/
theorem cat_bot (u : FVec Ideal S16x32768 .f32) (f : FVec Ideal S8x32768 .f32) (r : Fin 8) (q : Fin 32768) :
    concatenate S24x32768 0 [⟨S16x32768, u⟩, ⟨S8x32768, f⟩] concatenates_S16x32768_S8x32768_S24x32768_d0
        (ix2 (⟨r.val + 16, by omega⟩ : Fin 24) q) = f (ix2 r q) :=
  concatenate_pair_apply_right (0 : Fin S24x32768.rank) u f concatenates_S16x32768_S8x32768_S24x32768_d0 _ rfl rfl (ix2 r q)
    (fun b => match b with | ⟨0, _⟩ => fun h => absurd rfl h | ⟨1, _⟩ => fun _ => rfl)
    rfl

/-! ## The activity flag -/

/-- The compare-and-select of the kernel, on one number: 1 when it is positive, else 0. -/
theorem pos_select (s : EReal) :
    Scalar.select (Ideal.cmp .ogt s 0) (1 : EReal) 0 = if (0 : EReal) < s then 1 else 0 := by
  by_cases h : (0 : EReal) < s
  · rw [if_pos h]
    have : Ideal.cmp .ogt s 0 = 1#1 := by simp [Ideal.cmp, h]
    rw [this]; exact select_one _ _
  · rw [if_neg h]
    have : Ideal.cmp .ogt s 0 = 0#1 := by simp [Ideal.cmp, h]
    rw [this]; exact select_zero _ _

/-- Every one of the eight flag rows reads, at lane `q`, the flag of the lane's sixteen channels: the ones times the
    absolute values add up to the sum of the absolute values, compared with zero and turned into 1 or 0. -/
theorem flag_apply (v : FVec Ideal S16x32768 .f32) (r : Fin 8) (q : Fin 32768) :
    select (cmpf .ogt
        (matmul dot_S8x16_S16x32768_S8x32768_1_0_0_1_n_n none (broadcast S8x16 (Scalar.ofBits (F := Ideal) .bf16 0x3F80#16))
          (truncf .bf16 (absf v) bitsLt_bf16_f32) (constant (F := Ideal) S8x32768 .f32 0x00000000#32))
        (broadcast S8x32768 (Scalar.ofBits (F := Ideal) .f32 0x00000000#32)))
      (broadcast S8x32768 (Scalar.ofBits (F := Ideal) .f32 0x3F800000#32))
      (broadcast S8x32768 (Scalar.ofBits (F := Ideal) .f32 0x00000000#32)) (ix2 r q)
    = flagK (fun c => v (ix2 c q)) := by
  rw [select_apply, cmpf_apply, mm_ones_apply]
  show Scalar.select (Ideal.cmp .ogt (∑ k : Fin 16, Ideal.ofBits .bf16 0x3F80#16 * max (v (ix2 k q)) (-(v (ix2 k q))))
      (Ideal.ofBits .f32 0x00000000#32)) (Ideal.ofBits .f32 0x3F800000#32) (Ideal.ofBits .f32 0x00000000#32) = _
  rw [Ideal.ofBits_one_bf16, Ideal.ofBits_one_f32, Ideal.ofBits_zero_f32]
  simp only [one_mul]
  exact pos_select _

/-! ## The column of a lane, and the stored value -/

/-- The stacked array at lane `q`, whenever the lower piece holds the lane's flag in each of its rows, is the widened
    column of the lane's sixteen channels. -/
theorem col_apply (v : FVec Ideal S16x32768 .f32) (f : FVec Ideal S8x32768 .f32) (q : Fin 32768)
    (hf : ∀ r : Fin 8, f (ix2 r q) = flagK (fun c => v (ix2 c q))) (k : Fin 24) :
    concatenate S24x32768 0 [⟨S16x32768, v⟩, ⟨S8x32768, f⟩] concatenates_S16x32768_S8x32768_S24x32768_d0 (ix2 k q)
      = colK (fun c => v (ix2 c q)) k := by
  unfold colK
  by_cases h : k.val < 16
  · rw [dif_pos h]
    exact cat_top v f ⟨k.val, h⟩ q
  · rw [dif_neg h]
    have hk : k = ⟨(⟨k.val - 16, by omega⟩ : Fin 8).val + 16, by omega⟩ := Fin.ext (by show k.val = k.val - 16 + 16; omega)
    rw [hk]
    exact (cat_bot v f ⟨k.val - 16, by omega⟩ q).trans (hf _)

theorem pay_at (x0 : (⟨3, ![1, 16, 32768]⟩ : Shape).Idx → EReal) (wc : (⟨2, ![16, 24]⟩ : Shape).Idx → EReal)
    (o : Fin 16) (q : Fin 32768) :
    Cert.KernelIdeal.Gen.k0_pay1 (F := Ideal) x0 wc (ix3 (0 : Fin 1) o q)
      = siteKer (fun k => x0 (ix3 (0 : Fin 1) k q)) (fun k => wc (ix2 o k)) := by
  unfold Cert.KernelIdeal.Gen.k0_pay1
  refine (shapeCast_ab_1ab_apply _ _ (0 : Fin 1) o q).trans ?_
  refine (mm_row_apply _ _ o q).trans ?_
  unfold siteKer
  refine Finset.sum_congr rfl fun k _ => ?_
  have hx : (fun c : Fin 16 => shapeCast S16x32768 x0 shapeCasts_S1x16x32768_S16x32768 (ix2 c q))
      = fun c => x0 (ix3 (0 : Fin 1) c q) := funext fun c => shapeCast_1ab_ab_apply x0 _ c q
  have hw : shapeCast S16x24 wc shapeCasts_S16x24_S16x24 (ix2 o k) = wc (ix2 o k) :=
    congrFun (shapeCast_self wc _) _
  rw [hw, ← hx]
  refine congrArg (wc (ix2 o k) * ·) ?_
  exact col_apply _ _ q (fun r => flag_apply _ r q) k

end Cert.SpConv.Payload

end
-- ==== Proof.CallValue.lean ====
/-
  What the idealized program's result array holds at the end.

  At grid point (i, j) the call writes back block (i, 0, j) of its [8, 16, 262144] result: the slab of image i and
  lanes j · 32768 … j · 32768 + 32767. Entry (0, o, q) of what it writes is the body's value at output channel o and
  lane q of the two loaded blocks, that is, the length-24 contraction of row o of the widened weights with the widened
  channel column of lane q of the input slab. Read through the two operands' contents this is the kernel's
  arrangement at image i, channel o and flat position p = j · 32768 + q, i.e. at row p / 512 and column p % 512.
  The 64 slabs tile the array, so the whole result is that one function; the last host line reshapes
  [8, 16, 262144] to [8, 16, 512, 512], sending flat position h · 512 + w back to (h, w).
-/
import proofs.«141526_g24369644438240_cont_8to1_380_3_alg».proof.Proof.Operands
import proofs.«141526_g24369644438240_cont_8to1_380_3_alg».proof.Proof.Payload

set_option maxRecDepth 16384

noncomputable section

namespace Cert.KernelIdeal.HandValue

open Cert.KernelIdeal Cert.KernelIdeal.Gen Cert.KernelIdeal.Hand Cert.SpConv
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The call's result array as ONE function of the arguments: at (n, o, p) the kernel's arrangement at image n,
    output channel o, row p / 512, column p % 512. -/
def callOut (c : Dev nD) : S8x16x262144.Idx → EReal := fun i =>
  kerAt (xArr m c) (wArr m c) (bArr m c) ⟨(i 0).val, (i 0).isLt⟩ ⟨(i 1).val, (i 1).isLt⟩
    ⟨(i 2).val / 512, by have h : (i 2).val < 262144 := (i 2).isLt; omega⟩
    ⟨(i 2).val % 512, by omega⟩

theorem callOut_ix3 (c : Dev nD) (n : Fin 8) (o : Fin 16) (p : Fin 262144) :
    callOut m c (ix3 n o p) = kerAt (xArr m c) (wArr m c) (bArr m c) n o ⟨p.val / 512, by omega⟩ ⟨p.val % 512, by omega⟩ := rfl

/-! ## Which blocks a grid point touches -/

/-- Over the 64 grid points: the input slab and the output slab have the same block index, (i, 0, j) with i, j < 8;
    the weights' block index is always (0, 0). -/
theorem where_blocks : ∀ t : Fin cfg0.N,
    win0_0.index t (0 : Fin 3) = win0_2.index t (0 : Fin 3) ∧ win0_0.index t (1 : Fin 3) = 0
    ∧ win0_0.index t (2 : Fin 3) = win0_2.index t (2 : Fin 3) ∧ win0_2.index t (1 : Fin 3) = 0
    ∧ win0_2.index t (0 : Fin 3) < 8 ∧ win0_2.index t (2 : Fin 3) < 8
    ∧ win0_1.index t (0 : Fin 2) = 0 ∧ win0_1.index t (1 : Fin 2) = 0 :=
  (by decide +kernel : ∀ t : Fin grid0.N, _)

/-- Every slab (i, 0, j) is some grid point's. -/
theorem every_block : ∀ (q0 : Fin 8) (q2 : Fin 8), ∃ t : Fin cfg0.N, win0_2.index t = ![q0.val, 0, q2.val] :=
  (by decide +kernel : ∀ (q0 : Fin 8) (q2 : Fin 8), ∃ t : Fin grid0.N, win0_2.index t = ![q0.val, 0, q2.val])

/-! ## What a grid point writes back -/

theorem written_back (c : Dev nD) (t : Fin cfg0.N) :
    (pdata m 0 c).flushed 2 t = ((cfg0.win 2).blk t).view.read (Elt Ideal) (callOut m c) := by
  show (cfg0.win 2).cut (grid0.coords t) ((pdata m 0 c).after 2 t) = _
  rw [pdata_after_out]
  unfold stored
  rw [View.canon_unit_zero zeros3]
  simp only [View.ld_unit_zero (S := S1x16x32768) zeros3, View.ld_unit_zero (S := S16x24) zeros2]
  obtain ⟨e0, e1, e2, e3, e4, e5, e6, e7⟩ := where_blocks t
  funext j
  obtain ⟨z, o, q, rfl⟩ : ∃ (z : Fin 1) (o : Fin 16) (q : Fin 32768), j = ix3 z o q := ⟨j 0, j 1, j 2, eq_ix3 j⟩
  obtain rfl : z = 0 := Subsingleton.elim _ _
  have hq : q.val < 32768 := q.isLt
  -- the slab's image and the flat position of lane q in it
  let N : Fin 8 := ⟨win0_2.index t (0 : Fin 3), e4⟩
  let p : Fin 262144 := ⟨win0_2.index t (2 : Fin 3) * 32768 + q.val, by omega⟩
  -- the input block's entries are the input's channels at that site
  have hx : (fun k : Fin 16 => blk m c 0 t (ix3 (0 : Fin 1) k q))
      = chans (xArr m c) N ⟨p.val / 512, by omega⟩ ⟨p.val % 512, by omega⟩ := by
    funext k
    have hi : ((cfg0.win 0).blk t).view.emb (ix3 (0 : Fin 1) k q) = ix3 N k p := by
      funext a; apply Fin.ext
      match a with
      | ⟨0, _⟩ => show win0_0.index t (0 : Fin 3) * 1 + 1 * 0 = win0_2.index t (0 : Fin 3); omega
      | ⟨1, _⟩ => show win0_0.index t (1 : Fin 3) * 16 + 1 * k.val = k.val; omega
      | ⟨2, _⟩ => show win0_0.index t (2 : Fin 3) * 32768 + 1 * q.val = win0_2.index t (2 : Fin 3) * 32768 + q.val; omega
    show (entry m c main_v0 : S8x16x262144.Idx → EReal) (((cfg0.win 0).blk t).view.emb (ix3 (0 : Fin 1) k q)) = _
    rw [hi]
    exact entry_v0_at m c N k p
  -- the weight block's row o is the widened row of output channel o
  have hw : (fun k : Fin 24 => blk m c 1 t (ix2 o k)) = rowK (wts (wArr m c) o) (bArr m c (ix1 o)) := by
    funext k
    have hi : ((cfg0.win 1).blk t).view.emb (ix2 o k) = ix2 o k := by
      funext a; apply Fin.ext
      match a with
      | ⟨0, _⟩ => show win0_1.index t (0 : Fin 2) * 16 + 1 * o.val = o.val; omega
      | ⟨1, _⟩ => show win0_1.index t (1 : Fin 2) * 24 + 1 * k.val = k.val; omega
    show (entry m c main_v3 : S16x24.Idx → EReal) (((cfg0.win 1).blk t).view.emb (ix2 o k)) = _
    rw [hi]
    exact entry_v3_at m c o k
  -- where the written entry lands in the result array
  have ho : ((cfg0.win 2).blk t).view.emb (ix3 (0 : Fin 1) o q) = ix3 N o p := by
    funext a; apply Fin.ext
    match a with
    | ⟨0, _⟩ => show win0_2.index t (0 : Fin 3) * 1 + 1 * 0 = win0_2.index t (0 : Fin 3); omega
    | ⟨1, _⟩ => show win0_2.index t (1 : Fin 3) * 16 + 1 * o.val = o.val; omega
    | ⟨2, _⟩ => show win0_2.index t (2 : Fin 3) * 32768 + 1 * q.val = win0_2.index t (2 : Fin 3) * 32768 + q.val; omega
  refine (Cert.SpConv.Payload.pay_at _ _ o q).trans ?_
  show siteKer (fun k : Fin 16 => blk m c 0 t (ix3 (0 : Fin 1) k q)) (fun k : Fin 24 => blk m c 1 t (ix2 o k))
    = callOut m c (((cfg0.win 2).blk t).view.emb (ix3 (0 : Fin 1) o q))
  rw [hx, hw, ho, callOut_ix3]
  rfl

/-! ## The slabs tile the result -/

theorem in_block (t : Fin cfg0.N) (i : S8x16x262144.Idx) :
    i ∈ ((cfg0.win 2).blk t).view.set ↔ ∀ a : Fin 3, win0_2.index t a * S1x16x32768.size a ≤ (i a).val
      ∧ (i a).val < win0_2.index t a * S1x16x32768.size a + S1x16x32768.size a := by
  show i ∈ ((View.whole main_v4).slice (win0_2.rect t)).set ↔ _
  rw [View.set_slice_whole, Rect.mem_set_unit]
  exact Iff.rfl

/-- Entry (n, o, p) lies in the slab of image n and lane group p / 32768. -/
theorem all_covered (i : S8x16x262144.Idx) :
    ∃ t : Fin cfg0.N, (cfg0.win 2).flush t = true ∧ i ∈ ((cfg0.win 2).blk t).view.set := by
  have h0 : (i 0).val < 8 := (i 0).isLt
  have h1 : (i 1).val < 16 := (i 1).isLt
  have h2 : (i 2).val < 262144 := (i 2).isLt
  obtain ⟨t, ht⟩ := every_block ⟨(i 0).val, h0⟩ ⟨(i 2).val / 32768, by omega⟩
  have q0 : win0_2.index t (0 : Fin 3) = (i 0).val := congrFun ht 0
  have q1 : win0_2.index t (1 : Fin 3) = 0 := congrFun ht 1
  have q2 : win0_2.index t (2 : Fin 3) = (i 2).val / 32768 := congrFun ht 2
  refine ⟨t, flush0_2 t, ?_⟩
  rw [in_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 16 ≤ (i 1).val ∧ (i 1).val < win0_2.index t (1 : Fin 3) * 16 + 16; omega
  | ⟨2, _⟩ => show win0_2.index t (2 : Fin 3) * 32768 ≤ (i 2).val ∧ (i 2).val < win0_2.index t (2 : Fin 3) * 32768 + 32768; omega

/-- The call's result array after the last write-back. -/
theorem call_result (c : Dev nD) : (pdata m 0 c).arrAt 2 cfg0.N = callOut m c :=
  (pdata m 0 c).arrAt_eq_of_cover 2 (callOut m c) (fun t _ => written_back m c t) all_covered

/-! ## The last host line -/

theorem final_v5 (c : Dev nD) :
    (final m (pdata m) c main_v5 : S8x16x512x512.Idx → EReal) = outKer (xArr m c) (wArr m c) (bArr m c) := by
  have e : (final m (pdata m) c main_v5 : S8x16x512x512.Idx → EReal)
      = shapeCast S8x16x512x512 (callOut m c) shapeCasts_S8x16x262144_S8x16x512x512 := by
    unfold final Pipeline.afterTail₀
    show StableHlo.after hostOps1 _ (Proc.devRef .tc main_v5) = _
    after_results
    rw [show Pipeline.withArrays (cfgs 0).spec c (entry0 m c) (fun w => (pdata m 0 c).arrAt w (cfgs 0).N) (Proc.devRef .tc main_v4)
        = callOut m c from (Pipeline.withArrays_arr spec0 launch0.win.arr_inj c _ _ 2).trans (call_result m c)]
    rfl
  rw [e]
  funext i
  obtain ⟨n, o, h, w, rfl⟩ : ∃ (n : Fin 8) (o : Fin 16) (h w : Fin 512), i = ix4 n o h w := ⟨i 0, i 1, i 2, i 3, eq_ix4 i⟩
  have hh : h.val < 512 := h.isLt
  have hw : w.val < 512 := w.isLt
  rw [outKer_ix4]
  refine (shapeCast_apply _ _ _ (ix3 n o (⟨h.val * 512 + w.val, by omega⟩ : Fin 262144)) ?_).trans ?_
  · rw [Shape.rowMajor_val_three, Shape.rowMajor_val_four]
    show (n.val * 16 + o.val) * 262144 + (h.val * 512 + w.val) = ((n.val * 16 + o.val) * 512 + h.val) * 512 + w.val
    omega
  · rw [callOut_ix3]
    have a1 : (⟨(h.val * 512 + w.val) / 512, by omega⟩ : Fin 512) = h := Fin.ext (by show (h.val * 512 + w.val) / 512 = h.val; omega)
    have a2 : (⟨(h.val * 512 + w.val) % 512, by omega⟩ : Fin 512) = w := Fin.ext (by show (h.val * 512 + w.val) % 512 = w.val; omega)
    rw [a1, a2]

/-! ## The run, read -/

/-- Every weakly fair execution of the idealized program terminates without a fault, with the result array at the kernel's
    arrangement of the arguments and the arguments as launched. -/
theorem kernel_run : θ_run defs (onTc (τ := τ) (main (F := Ideal))) ⟨m, fun _ => 0, ρ⟩ (fun r => ∀ c : Dev nD,
      r.2.mem ((c.tc : Thread nD τ).loc main_v5) = outKer (xArr m c) (wArr m c) (bArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (Pipeline.mem_restRefs_of main_v5 (by decide) (by decide))).trans (final_v5 m c),
     ((h c).2 main_arg0 (Pipeline.mem_restRefs_of main_arg0 (by decide) (by decide))).trans (final_arg0 m (pdata m) c),
     ((h c).2 main_arg1 (Pipeline.mem_restRefs_of main_arg1 (by decide) (by decide))).trans (final_arg1 m (pdata m) c),
     ((h c).2 main_arg2 (Pipeline.mem_restRefs_of main_arg2 (by decide) (by decide))).trans (final_arg2 m (pdata m) c)⟩) (run m ρ)

end Cert.KernelIdeal.HandValue

end
-- ==== Proof.LibAnyReduce.lean ====
/-
  jnp.any read back: a reduction by "or" over one-bit words, and the bit as a number.

  A host program's `jnp.any(p, axis)` is a reduction of the one-bit array `p` by "or" from the constant 0. Its result
  at an index is 1 exactly when the initial value is 1 or SOME element of `p` that reduces into that index is 1
  (`reduce_ori_eq_one_iff`: for any shapes and axes). With it: the comparison "x ≠ 0" of an extended real against
  the float zero as a one-bit word (`cmp_une_zero_eq_one`), and a one-bit word converted to a float at the ideal
  instance, which is the number 1 or 0 (`uitofp_one`, `uitofp_zero`). Together they read a mask
  `any(x != 0).astype(float)` as "1 if some entry is not zero, else 0".
-/
import Idealize.ShloMosaic.PureOps.Reduce
import Idealize.ShloMosaic.PureOps.Ideal.Laws

noncomputable section

namespace Cert.AnyLib

open Idealize.ShloMosaic

/-! ## A reduction by "or" over one-bit words

A left fold by "or" ends at 1 exactly when it started at 1 or met a 1; so an or-reduce is 1 at a result index
exactly when its initial value is 1 or some operand element that reduces into that index is 1. -/

/-- The "or" of two one-bit words is 1 exactly when one of them is. -/
theorem ori_eq_one {c d : BitVec 1} : IntOp.ori c d = 1#1 ↔ c = 1#1 ∨ d = 1#1 := by
  revert c d; decide

/-- A left fold by "or" over one-bit words is 1 exactly when it started at 1 or one of the words is 1. -/
theorem foldl_ori_eq_one_iff {ι : Type} (f : ι → BitVec 1) :
    ∀ (l : List ι) (init : BitVec 1),
      l.foldl (fun r n => IntOp.ori r (f n)) init = 1#1 ↔ init = 1#1 ∨ ∃ n ∈ l, f n = 1#1
  | [], init => by simp
  | a :: l, init => by
    rw [List.foldl_cons, foldl_ori_eq_one_iff f l, ori_eq_one]
    constructor
    · rintro ((h | h) | ⟨n, hn, h⟩)
      · exact Or.inl h
      · exact Or.inr ⟨a, List.mem_cons_self, h⟩
      · exact Or.inr ⟨n, List.mem_cons_of_mem _ hn, h⟩
    · rintro (h | ⟨n, hn, h⟩)
      · exact Or.inl (Or.inl h)
      · rcases List.mem_cons.1 hn with rfl | hn
        · exact Or.inl (Or.inr h)
        · exact Or.inr ⟨n, hn, h⟩

/-- An or-reduce is 1 at a result index exactly when its initial value is 1 or some operand element reducing into
    that index is 1. -/
theorem reduce_ori_eq_one_iff {s t u : Shape} {axes : List (Fin s.rank)} (x : s.Idx → BitVec 1)
    (init : u.Idx → BitVec 1) (h : s.ReducesTo axes t) (hu : 0 < u.numel) (j : t.Idx) :
    Host.reduce IntOp.ori x init h hu j = 1#1
      ↔ init (Shape.Idx.first hu) = 1#1 ∨ ∃ i, h.drop i = j ∧ x i = 1#1 := by
  rw [Host.reduce_eq_foldl, foldl_ori_eq_one_iff]
  refine or_congr Iff.rfl ⟨?_, ?_⟩
  · rintro ⟨i, hi, hx⟩
    rw [List.mem_filter] at hi
    exact ⟨i, by simpa using hi.2, hx⟩
  · rintro ⟨i, hi, hx⟩
    refine ⟨i, ?_, hx⟩
    rw [List.mem_filter]
    exact ⟨List.mem_map.2 ⟨s.rowMajor i, List.mem_finRange _, Equiv.symm_apply_apply _ _⟩, by simp [hi]⟩

/-- At extended reals, "not equal to zero" as a one-bit word is 1 exactly when the value is not zero. -/
theorem cmp_une_zero_eq_one (a : EReal) :
    FloatOps.cmpf (F := Ideal) (φ := .f32) .une a (FloatOps.ofBits .f32 0x00000000#32) = 1#1 ↔ a ≠ 0 := by
  rw [Ideal.cmpf_def, Ideal.ofBits_def, Ideal.ofBits_zero_f32]
  by_cases ha : a = 0
  · simp [Ideal.cmp, ha]
  · simp [Ideal.cmp, ha]

/-- A one-bit word read as an unsigned integer: the word 1 is the number one … -/
theorem uitofp_one : FloatOps.uitofp (F := Ideal) .f32 (1#1 : BitVec 1) = 1 := by
  show ((((1#1 : BitVec 1).toNat : ℝ)) : EReal) = 1
  simp

/-- … and the word 0 is the number zero. -/
theorem uitofp_zero : FloatOps.uitofp (F := Ideal) .f32 (0#1 : BitVec 1) = 0 := by
  show ((((0#1 : BitVec 1).toNat : ℝ)) : EReal) = 0
  simp

end Cert.AnyLib

end
-- ==== Proof.RefSide.lean ====
/-
  The reference program's result, read index by index, is the reference arrangement of the specification.

  Its last stage is a transpose back to channels-first of a product: the affine value Σₖ x(n,k,h,w) · W(o,k) + b(o),
  computed channels-last by one contraction and a broadcast bias, times the site's mask. The mask is "some channel of
  the site is not zero": a comparison against zero, reduced by "or" over the channel axis, converted to a float and
  broadcast over the output channels. Every stage but the or-reduce is read at an index by the imported lemmas; the
  or-reduce is read by the general lemma about reductions by "or".
-/
import proofs.«141526_g24369644438240_cont_8to1_380_3_alg».proof.Proof.Gen.ReferenceIdeal.Read
import proofs.«141526_g24369644438240_cont_8to1_380_3_alg».proof.Proof.Spec
import proofs.«141526_g24369644438240_cont_8to1_380_3_alg».proof.Proof.LibAnyReduce

noncomputable section

namespace Cert.SpConv.RefSide

open Idealize.ShloMosaic Idealize.ShloMosaic.ValueIdx Cert.SpConv Cert.AnyLib
open scoped BigOperators

open Cert.ReferenceIdeal.Read Cert.ReferenceIdeal.Gen Cert.ReferenceIdeal in
/-- The reference's any-channel bit at a site: it is 1 exactly when some channel of the site is not zero. -/
theorem any_at (x : SX.Idx → EReal) (n : Fin 8) (h w : Fin 512) :
    val_main_v3 (F := Ideal) x (ix3 n h w) = 1#1 ↔ ∃ k : Fin 16, x (ix4 n k h w) ≠ 0 := by
  unfold val_main_v3
  rw [reduce_ori_eq_one_iff]
  constructor
  · rintro (h0 | ⟨i, hi, hx⟩)
    · exact absurd h0 (by decide)
    · rw [val_main_v2_apply, val_main_v0_apply, val_main_v1_apply, val_main_cst_apply, cmp_une_zero_eq_one] at hx
      have d0 := reducesTo_S8x512x512x16_S8x512x512_d3.drop_apply_val_of_eq i 0 0
      have d1 := reducesTo_S8x512x512x16_S8x512x512_d3.drop_apply_val_of_eq i 1 1
      have d2 := reducesTo_S8x512x512x16_S8x512x512_d3.drop_apply_val_of_eq i 2 2
      rw [hi] at d0 d1 d2
      have e : idx_main_v0 i = ix4 n ⟨(i 3).val, (i 3).isLt⟩ h w := funext fun a => Fin.ext (by
        match a with
        | ⟨0, _⟩ => exact d0.symm
        | ⟨1, _⟩ => rfl
        | ⟨2, _⟩ => exact d1.symm
        | ⟨3, _⟩ => exact d2.symm)
      rw [e] at hx
      exact ⟨_, hx⟩
  · rintro ⟨k, hk⟩
    refine Or.inr ⟨ix4 n h w k, ?_, ?_⟩
    · funext a
      apply Fin.ext
      match a with
      | ⟨0, _⟩ => exact reducesTo_S8x512x512x16_S8x512x512_d3.drop_apply_val_of_eq _ 0 0
      | ⟨1, _⟩ => exact reducesTo_S8x512x512x16_S8x512x512_d3.drop_apply_val_of_eq _ 1 1
      | ⟨2, _⟩ => exact reducesTo_S8x512x512x16_S8x512x512_d3.drop_apply_val_of_eq _ 2 2
    · have e : idx_main_v0 (ix4 n h w k) = ix4 n k h w := funext fun a => by
        match a with
        | ⟨0, _⟩ => rfl
        | ⟨1, _⟩ => rfl
        | ⟨2, _⟩ => rfl
        | ⟨3, _⟩ => rfl
      rw [val_main_v2_apply, val_main_v0_apply, val_main_v1_apply, val_main_cst_apply, cmp_une_zero_eq_one, e]
      exact hk

open Cert.ReferenceIdeal.Read Cert.ReferenceIdeal.Gen Cert.ReferenceIdeal in
/-- The reference program's result is, index by index, the reference arrangement: at the site (n, h, w) and output
    channel o it is the affine value Σₖ x(n,k,h,w) · W(o,k) + b(o), times the site's any-channel bit read as a number,
    and that bit is 1 exactly when some channel of the site is not zero. -/
theorem ref_is_outRef (x : SX.Idx → EReal) (W : SW.Idx → EReal) (b : SB.Idx → EReal) :
    Cert.ReferenceIdeal.Read.val_main_v12 (F := Ideal) x W b = outRef x W b := by
  funext i
  obtain ⟨n, o, h, w, rfl⟩ : ∃ (n : Fin 8) (o : Fin 16) (h w : Fin 512), i = ix4 n o h w :=
    ⟨i 0, i 1, i 2, i 3, eq_ix4 i⟩
  rw [outRef_ix4, val_main_v12_apply, val_main_v11_apply, val_main_v7_apply, val_main_v4_apply, val_main_v6_apply,
    val_main_v5_apply, val_main_v10_apply, val_main_v9_apply, val_main_v8_apply]
  simp only [val_main_v0_apply]
  have e8 : idx_main_v8 (idx_main_v10 (idx_main_v12 (ix4 n o h w))) = ix3 n h w := funext fun a => by
    match a with
    | ⟨0, _⟩ => rfl
    | ⟨1, _⟩ => rfl
    | ⟨2, _⟩ => rfl
  have e5 : idx_main_v5 (idx_main_v6 (idx_main_v12 (ix4 n o h w))) = ix1 o := funext fun a => by
    match a with
    | ⟨0, _⟩ => rfl
  have el : ∀ k : Fin 16, idx_main_v0 (lidx_main_v4 (idx_main_v12 (ix4 n o h w)) k) = ix4 n k h w := fun k =>
    funext fun a => by
      match a with
      | ⟨0, _⟩ => rfl
      | ⟨1, _⟩ => rfl
      | ⟨2, _⟩ => rfl
      | ⟨3, _⟩ => rfl
  have er : ∀ k : Fin 16, ridx_main_v4 (idx_main_v12 (ix4 n o h w)) k = ix2 o k := fun k =>
    funext fun a => by
      match a with
      | ⟨0, _⟩ => rfl
      | ⟨1, _⟩ => rfl
  rw [e8, e5]
  simp only [el, er]
  rw [Ideal.mulf_def, Ideal.addf_def]
  unfold refAt siteRef active chans wts
  by_cases hex : ∃ k : Fin 16, x (ix4 n k h w) ≠ 0
  · rw [(any_at x n h w).2 hex, if_pos hex, uitofp_one]
  · rw [eq_zero_of_ne_one (mt (any_at x n h w).1 hex), if_neg hex, uitofp_zero]

end Cert.SpConv.RefSide

end
-- ==== Proof.LibReal.lean ====
/-
  Extended reals that are real numbers, and arrays all of whose entries are.

  Over the extended reals a sum or a product can meet an infinity; over the reals it cannot. The lemmas here say that the
  real numbers inside the extended reals are closed under what a dense layer does: sums (finite ones too), products,
  differences, maxima and minima, and a quotient by a real that is not zero. Then the same for whole arrays, operation by
  operation: a constant zero or one, a broadcast, a transpose and a gather (each entry of the result is an entry of the
  operand), an accumulating scatter (an entry plus a finite sum of updates), a contraction (a finite sum of products),
  a column sum, and the pointwise operations. Last: an array whose test "every |entry| is below +infinity" came out true
  has real entries only.
-/
import Idealize.ShloMosaic.PureOps.Ideal.Laws
import Idealize.ShloMosaic.Lib.IdealHost
import Idealize.ShloMosaic.Lib.ReduceAll

noncomputable section

namespace Cert.RealLib

open Idealize.ShloMosaic
open scoped BigOperators

/-! ## One extended real -/

/-- The extended real is a real number. -/
abbrev IsReal (x : EReal) : Prop := ∃ r : ℝ, x = (r : EReal)

theorem isReal_coe (r : ℝ) : IsReal (r : EReal) := ⟨r, rfl⟩
theorem isReal_zero : IsReal (0 : EReal) := ⟨0, EReal.coe_zero.symm⟩
theorem isReal_one : IsReal (1 : EReal) := ⟨1, EReal.coe_one.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.max {x y : EReal} (hx : IsReal x) (hy : IsReal y) : IsReal (Max.max x y) := by
  rcases max_choice x y with h | h <;> rw [h] <;> assumption
theorem IsReal.min {x y : EReal} (hx : IsReal x) (hy : IsReal y) : IsReal (Min.min x y) := by
  rcases min_choice x y with h | h <;> rw [h] <;> assumption

/-- A finite sum of reals is a real. -/
theorem IsReal.sum {ι : Type*} (s : Finset ι) {f : ι → EReal} (h : ∀ i ∈ s, IsReal (f i)) : IsReal (∑ i ∈ s, f i) :=
  Finset.sum_induction f IsReal (fun _ _ => IsReal.add) isReal_zero h

theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

/-- What is neither infinity is a real. -/
theorem isReal_of_ne {x : EReal} (h1 : x ≠ ⊤) (h2 : x ≠ ⊥) : IsReal x := by
  induction x using EReal.rec with
  | bot => exact absurd rfl h2
  | coe r => exact ⟨r, rfl⟩
  | top => exact absurd rfl h1

/-- The extended real is a real number other than zero. -/
abbrev IsNZReal (x : EReal) : Prop := ∃ r : ℝ, r ≠ 0 ∧ x = (r : EReal)

theorem IsNZReal.isReal {x : EReal} (hx : IsNZReal x) : IsReal x := by obtain ⟨r, -, h⟩ := hx; exact ⟨r, h⟩

/-- The quotient of a real by a real that is not zero is a real. -/
theorem IsReal.div {x y : EReal} (hx : IsReal x) (hy : IsNZReal y) : IsReal (Ideal.div x y) := by
  obtain ⟨r, h0, rfl⟩ := hy
  rw [Ideal.div_coe h0]
  exact hx.mul (isReal_coe _)

/-- The larger of a real and one is a real that is at least one, so not zero. -/
theorem IsReal.max_one {x : EReal} (hx : IsReal x) : IsNZReal (Max.max x 1) := by
  obtain ⟨a, rfl⟩ := hx
  refine ⟨Max.max a 1, ?_, ?_⟩
  · have : (1 : ℝ) ≤ Max.max a 1 := le_max_right a 1
    intro h0; rw [h0] at this; exact absurd this (by norm_num)
  · rw [← EReal.coe_one]; exact (EReal.coe_strictMono.monotone.map_max (a := a) (b := 1))

/-! ## Arrays -/

/-- Every entry of the array is a real. -/
abbrev AllReal {s : Shape} (v : s.Idx → EReal) : Prop := ∀ i, IsReal (v i)
/-- Every entry of the array is a real other than zero. -/
abbrev AllNZReal {s : Shape} (v : s.Idx → EReal) : Prop := ∀ i, IsNZReal (v i)

theorem AllNZReal.allReal {s : Shape} {v : s.Idx → EReal} (h : AllNZReal v) : AllReal v := fun i => (h i).isReal

theorem allReal_constant_zero (s : Shape) : AllReal (constant (F := Ideal) s .f32 0x00000000#32) :=
  fun _ => ⟨0, by show Ideal.ofBits .f32 0x00000000#32 = _; rw [Ideal.ofBits_zero_f32]; exact EReal.coe_zero.symm⟩
theorem allReal_constant_one (s : Shape) : AllReal (constant (F := Ideal) s .f32 0x3F800000#32) :=
  fun _ => ⟨1, by show Ideal.ofBits .f32 0x3F800000#32 = _; rw [Ideal.ofBits_one_f32]; exact EReal.coe_one.symm⟩

section Ops
variable {s t : Shape} {φ : FTy}

/-- Each entry of a broadcast is an entry of the operand. -/
theorem AllReal.broadcastInDim {x : s.Idx → EReal} (h : AllReal x) (dims : Fin s.rank → Fin t.rank)
    (hb : s.BroadcastsInDim t dims) : AllReal (broadcastInDim t dims hb x) := fun _ => h _
theorem AllNZReal.broadcastInDim {x : s.Idx → EReal} (h : AllNZReal x) (dims : Fin s.rank → Fin t.rank)
    (hb : s.BroadcastsInDim t dims) : AllNZReal (broadcastInDim t dims hb x) := fun _ => h _

/-- Each entry of a transpose is an entry of the operand. -/
theorem AllReal.transpose {x : s.Idx → EReal} (h : AllReal x) (perm : List (Fin s.rank)) (ht : s.Transposes perm t) :
    AllReal (transpose t perm x ht) := fun _ => h _

/-- Each entry of a gather is an entry of the operand. -/
theorem AllReal.gather {si : Shape} {w : ℕ} {x : s.Idx → EReal} (h : AllReal x) (d : GatherDims s si t) (idx : IVec si w) :
    AllReal (Host.gather d x idx) := fun _ => h _

/-- Each entry of an accumulating scatter is the operand's entry plus a finite sum of updates. -/
theorem AllReal.scatterAdd {si u : Shape} {w : ℕ} {x : FVec Ideal s φ} {upd : FVec Ideal u φ} (hx : AllReal x)
    (hu : AllReal upd) (d : ScatterDims s si u) (idx : IVec si w) : AllReal (Host.scatterAdd d x idx upd) :=
  fun i => (hx i).add (IsReal.sum _ fun j _ => hu j)

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllReal.minimumf {x y : FVec Ideal s φ} (hx : AllReal x) (hy : AllReal y) : AllReal (minimumf x y) :=
  fun i => (hx i).min (hy i)

/-- The host's quotient by an array of reals none of which is zero. -/
theorem AllReal.hostDivf {x y : FVec Ideal s φ} (hx : AllReal x) (hy : AllNZReal y) : AllReal (Host.divf x y) :=
  fun i => (hx i).div (hy i)

/-- The pointwise larger of an array of reals and the constant one: reals, none zero. -/
theorem AllReal.maximumf_one {x : FVec Ideal s .f32} (hx : AllReal x) {y : FVec Ideal s .f32} (hy : ∀ i, y i = 1) :
    AllNZReal (Idealize.ShloMosaic.maximumf x y) := fun i => by
  show IsNZReal (Max.max (x i) (y i))
  rw [hy i]; exact (hx i).max_one

/-- A contraction is, at each index, a finite sum of products. -/
theorem AllReal.dotGeneral {sl sr so : Shape} {φ₁ φ₂ : FTy} {l : FVec Ideal sl φ₁} {r : FVec Ideal sr φ₂} (hl : AllReal l)
    (hr : AllReal r) (d : DotDims sl sr so) (prec : Option ContractPrecision) : AllReal (Host.dotGeneral d prec l r) :=
  fun j => isReal_zero.add (IsReal.sum _ fun k _ => (hl _).mul (hr _))

/-- A sum over some axes is, at each index, the initial value plus a finite sum of entries. -/
theorem AllReal.reduceAdd {axes : List (Fin s.rank)} {u : Shape} {x : FVec Ideal s φ} {init : u.Idx → Ideal φ}
    (hx : AllReal x) (hi : ∀ k, IsReal (init k)) (h : s.ReducesTo axes t) (hu : 0 < u.numel) :
    AllReal (Host.reduceAdd x init h hu) :=
  fun _ => (hi _).add (IsReal.sum _ fun i _ => hx i)

end Ops

/-! ## The test "every |entry| is below +infinity" -/

instance : Subsingleton (Shape.Idx ⟨0, ![]⟩) := ⟨fun a b => funext fun d => d.elim0⟩

theorem inf_bits : Ideal.ofBits .f32 0x7F800000#32 = (⊤ : EReal) := by
  simp [Ideal.ofBits, Ideal.ieee]

/-- An extended real whose absolute value is below +infinity is a real. -/
theorem isReal_of_abs_lt_inf (x : EReal)
    (h : Ideal.cmp .olt (Max.max x (-x)) (Ideal.ofBits .f32 0x7F800000#32) = 1#1) : IsReal x := by
  rw [inf_bits] at h
  induction x using EReal.rec with
  | bot => simp [Ideal.cmp] at h
  | coe r => exact ⟨r, rfl⟩
  | top => simp [Ideal.cmp] at h

/-- An array of which `all (|v| < +inf)` came out true has real entries only. -/
theorem allReal_of_all_abs_lt_inf {s : Shape} {axes : List (Fin s.rank)} (v : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (j : (⟨0, ![]⟩ : Shape).Idx)
    (h : Host.reduce IntOp.andi
          (cmpf .olt (Host.absf v) (broadcastInDim s ![] hb (constant (F := Ideal) ⟨0, ![]⟩ .f32 0x7F800000#32)))
          (constantI ⟨0, ![]⟩ 1 1#1) hr hu j = 1#1) : AllReal v := fun i =>
  isReal_of_abs_lt_inf (v i) (Host.reduce_andi_all _ _ hr hu j h i)

end Cert.RealLib

end
-- ==== Proof.Algebra.lean ====
import proofs.«141526_g24369644438240_cont_8to1_380_3_alg».proof.Proof.Spec
import proofs.«141526_g24369644438240_cont_8to1_380_3_alg».proof.Proof.LibReal
import Mathlib.Algebra.BigOperators.Fin
import Mathlib.Algebra.Order.BigOperators.Group.Finset
import Mathlib.Data.EReal.Basic

/-
  The two arrangements of a site agree when every entry is a real number.

  The contraction of length 24 is cut at place 16. The first sixteen places pair each weight with its channel; place 16
  pairs the bias with the flag; the last seven places pair a zero with the flag and vanish. For real channels the sum of
  the absolute values is positive exactly when some channel is not zero, so the two flags are the same number. At an
  active site both sides are the affine value; at an inactive site every channel is zero and both sides are zero.
-/

noncomputable section

namespace Cert.SpConv

open Idealize.ShloMosaic Idealize.ShloMosaic.ValueIdx Cert.RealLib
open scoped BigOperators

/-! ## Real numbers inside the extended reals -/

/-- The embedding of the reals commutes with a finite sum. -/
theorem coe_finsum {ι : Type*} (s : Finset ι) (f : ι → ℝ) :
    ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-- For a real number, the larger of it and its negative is its absolute value. -/
theorem max_neg_coe (a : ℝ) : max (a : EReal) (-(a : EReal)) = ((|a| : ℝ) : EReal) := by
  rw [← EReal.coe_neg, abs_eq_max_neg]
  exact (EReal.coe_strictMono.monotone.map_max (a := a) (b := -a)).symm

/-! ## The two flags -/

/-- For real channels: the absolute values add up to something positive exactly when some channel is not zero. -/
theorem abs_sum_pos_iff (xs : Fin 16 → EReal) (hx : ∀ k, IsReal (xs k)) :
    (0 : EReal) < ∑ c : Fin 16, max (xs c) (-(xs c)) ↔ ∃ k, xs k ≠ 0 := by
  choose r hr using hx
  have hsum : ∑ c : Fin 16, max (xs c) (-(xs c)) = ((∑ c : Fin 16, |r c| : ℝ) : EReal) := by
    rw [coe_finsum]
    refine Finset.sum_congr rfl fun c _ => ?_
    rw [hr c]; exact max_neg_coe (r c)
  rw [hsum, EReal.coe_pos]
  constructor
  · intro hpos
    by_contra hne
    have hz : ∑ c : Fin 16, |r c| = 0 := Finset.sum_eq_zero fun c _ => by
      have h0 : xs c = 0 := by
        by_contra hc; exact hne ⟨c, hc⟩
      rw [hr c] at h0
      have : r c = 0 := by exact_mod_cast h0
      rw [this, abs_zero]
    rw [hz] at hpos
    exact lt_irrefl _ hpos
  · rintro ⟨k, hk⟩
    have hk' : r k ≠ 0 := by
      intro h0; apply hk; rw [hr k, h0]; exact EReal.coe_zero
    calc (0 : ℝ) < |r k| := abs_pos.mpr hk'
      _ ≤ ∑ c : Fin 16, |r c| :=
        Finset.single_le_sum (f := fun c => |r c|) (fun i _ => abs_nonneg (r i)) (Finset.mem_univ k)

/-- For real channels the kernel's flag is the reference's flag. -/
theorem flagK_eq_active (xs : Fin 16 → EReal) (hx : ∀ k, IsReal (xs k)) : flagK xs = active xs := by
  have hiff := abs_sum_pos_iff xs hx
  unfold flagK active
  by_cases h : ∃ k, xs k ≠ 0
  · rw [if_pos (hiff.mpr h), if_pos h]
  · rw [if_neg (fun hp => h (hiff.mp hp)), if_neg h]

/-! ## The widened row and column, place by place -/

theorem rowK_castAdd (ws : Fin 16 → EReal) (b : EReal) (i : Fin 16) : rowK ws b (Fin.castAdd 8 i) = ws i := by
  unfold rowK
  rw [dif_pos (show (Fin.castAdd 8 i).val < 16 from i.isLt)]
  rfl

theorem colK_castAdd (xs : Fin 16 → EReal) (i : Fin 16) : colK xs (Fin.castAdd 8 i) = xs i := by
  unfold colK
  rw [dif_pos (show (Fin.castAdd 8 i).val < 16 from i.isLt)]
  rfl

theorem colK_natAdd (xs : Fin 16 → EReal) (i : Fin 8) : colK xs (Fin.natAdd 16 i) = flagK xs := by
  unfold colK
  rw [dif_neg (show ¬ (Fin.natAdd 16 i).val < 16 from by rw [Fin.coe_natAdd]; omega)]

theorem rowK_natAdd (ws : Fin 16 → EReal) (b : EReal) (i : Fin 8) :
    rowK ws b (Fin.natAdd 16 i) = if i = 0 then b else 0 := by
  unfold rowK
  rw [dif_neg (show ¬ (Fin.natAdd 16 i).val < 16 from by rw [Fin.coe_natAdd]; omega)]
  by_cases hi : i = 0
  · rw [if_pos hi, if_pos (by rw [hi]; rfl)]
  · rw [if_neg hi, if_neg]
    rw [Fin.coe_natAdd]
    intro h
    apply hi
    apply Fin.ext
    show i.val = 0
    omega

/-- The contraction of length 24, cut at place 16: the sixteen weight-channel products, and the bias times the flag. -/
theorem siteKer_split (xs ws : Fin 16 → EReal) (b : EReal) :
    siteKer xs (rowK ws b) = (∑ k : Fin 16, ws k * xs k) + b * flagK xs := by
  unfold siteKer
  have h1 : ∑ i : Fin 16, rowK ws b (Fin.castAdd 8 i) * colK xs (Fin.castAdd 8 i) = ∑ k : Fin 16, ws k * xs k :=
    Finset.sum_congr rfl fun i _ => by rw [rowK_castAdd, colK_castAdd]
  have h2 : ∑ i : Fin 8, rowK ws b (Fin.natAdd 16 i) * colK xs (Fin.natAdd 16 i) = b * flagK xs := by
    rw [Finset.sum_eq_single (0 : Fin 8)]
    · rw [rowK_natAdd, colK_natAdd, if_pos rfl]
    · intro i _ hi
      rw [rowK_natAdd, if_neg hi, zero_mul]
    · intro h; exact absurd (Finset.mem_univ _) h
  rw [← h1, ← h2]
  exact Fin.sum_univ_add (M := EReal) (a := 16) (b := 8) (fun k : Fin (16 + 8) => rowK ws b k * colK xs k)

/-! ## The site, and the whole arrays -/

theorem siteKer_rowK (xs ws : Fin 16 → EReal) (b : EReal) (hx : ∀ k, IsReal (xs k)) (hw : ∀ k, IsReal (ws k))
    (hb : IsReal b) : siteKer xs (rowK ws b) = siteRef xs ws b := by
  rw [siteKer_split, flagK_eq_active xs hx]
  unfold siteRef active
  by_cases h : ∃ k, xs k ≠ 0
  · rw [if_pos h, mul_one, mul_one]
    congr 1
    exact Finset.sum_congr rfl fun k _ => mul_comm _ _
  · rw [if_neg h, mul_zero, mul_zero, add_zero]
    refine Finset.sum_eq_zero fun k _ => ?_
    have h0 : xs k = 0 := by
      by_contra hc; exact h ⟨k, hc⟩
    rw [h0, mul_zero]

theorem outKer_eq_outRef (x : SX.Idx → EReal) (W : SW.Idx → EReal) (b : SB.Idx → EReal)
    (hx : AllReal x) (hW : AllReal W) (hb : AllReal b) : outKer x W b = outRef x W b := by
  funext i
  unfold outKer outRef kerAt refAt
  exact siteKer_rowK _ _ _ (fun k => hx _) (fun k => hW _) (hb _)

end Cert.SpConv

end
-- ==== Proof.Finite.lean ====
import proofs.«141526_g24369644438240_cont_8to1_380_3_alg».proof.Defs
import proofs.«141526_g24369644438240_cont_8to1_380_3_alg».proof.Proof.Gen.Pre_finite_inputs
import proofs.«141526_g24369644438240_cont_8to1_380_3_alg».proof.Proof.Spec
import proofs.«141526_g24369644438240_cont_8to1_380_3_alg».proof.Proof.LibReal
import Idealize.ShloMosaic.Lib.Affine

/-
  What the precondition says. It is the conjunction of three tests, one per argument, each of the form "every entry's
  absolute value is below +infinity". A conjunction of single bits is one exactly when each bit is one, and an argument
  that passes its test has no entry equal to either infinity: each entry is a real number.
-/

noncomputable section

namespace Cert.SpConv

open Idealize.ShloMosaic Idealize.ShloMosaic.ValueIdx Cert.RealLib
theorem allReal_of_pre (x : SX.Idx → EReal) (W : SW.Idx → EReal) (b : SB.Idx → EReal)
    (h : Cert.Pre_finite_inputs.fn (F := Ideal) x W b = fun _ => 1#1) : AllReal x ∧ AllReal W ∧ AllReal b := by
  have h0 := congrFun h ValueIdx.ix0
  dsimp only [Cert.Pre_finite_inputs.fn] at h0
  change IntOp.andi (IntOp.andi _ _) _ = 1#1 at h0
  obtain ⟨h12, h3⟩ := IntOp.andi_eq_one.1 h0
  obtain ⟨h1, h2⟩ := IntOp.andi_eq_one.1 h12
  exact ⟨allReal_of_all_abs_lt_inf x _ _ _ _ h1, allReal_of_all_abs_lt_inf W _ _ _ _ h2,
    allReal_of_all_abs_lt_inf b _ _ _ _ h3⟩

end Cert.SpConv

end
-- ==== Proof.lean ====
/-
  A 1 × 1 sparse convolution on [8, 16, 512, 512] inputs: the kernel program and the reference compute the same array
  over the extended reals when every input entry is finite.

  At a site (image n, row h, column w), with xs the sixteen input channels there, ws the weights of output channel o
  and b its bias, the reference computes (Σₖ xs k · ws k + b) · a, where a is 1 if some channel is not zero and 0
  otherwise. The kernel runs the two spatial axes together, cuts each image into eight slabs of 32768 sites, and per
  slab forms ONE contraction of length 24: the weight row widened by the bias and seven zeros against the channel
  column widened by eight copies of a flag, the flag being 1 where the channels' absolute values sum to something
  positive. For real channels the flag is a; the seven extra places contribute 0 · flag = 0 and place 16 contributes
  b · flag. At an active site both sides are Σₖ xs k · ws k + b; at an inactive one every channel is 0 and both are 0.
  Finiteness is used exactly once, for "the sum of absolute values is positive iff some channel is not zero".

  The three frames: the two kernel programs run their one call between host lines that never write an argument, and
  the call writes back only its own result array; the reference is host lines only.
  The ideal pass rewrote nothing, so the idealization claim has no conjunct.
-/
import proofs.«141526_g24369644438240_cont_8to1_380_3_alg».proof.Defs
import proofs.«141526_g24369644438240_cont_8to1_380_3_alg».proof.Proof.Gen.Kernel
import proofs.«141526_g24369644438240_cont_8to1_380_3_alg».proof.Proof.Gen.KernelIdeal
import proofs.«141526_g24369644438240_cont_8to1_380_3_alg».proof.Proof.Gen.ReferenceIdeal
import proofs.«141526_g24369644438240_cont_8to1_380_3_alg».proof.Proof.Gen.Pre_finite_inputs
import proofs.«141526_g24369644438240_cont_8to1_380_3_alg».proof.Proof.Gen.ReferenceIdeal.Run
import proofs.«141526_g24369644438240_cont_8to1_380_3_alg».proof.Proof.Gen.ReferenceIdeal.Read
import proofs.«141526_g24369644438240_cont_8to1_380_3_alg».proof.Proof.RunBits
import proofs.«141526_g24369644438240_cont_8to1_380_3_alg».proof.Proof.CallValue
import proofs.«141526_g24369644438240_cont_8to1_380_3_alg».proof.Proof.RefSide
import proofs.«141526_g24369644438240_cont_8to1_380_3_alg».proof.Proof.Algebra
import proofs.«141526_g24369644438240_cont_8to1_380_3_alg».proof.Proof.Finite
import Idealize.ShloMosaic.Adequacy
import Idealize.ShloMosaic.Init

noncomputable section

namespace Cert.Proof

open Idealize.ShloMosaic Idealize.SL.Sem

/-- The word-level kernel program terminates, faults nowhere and leaves its arguments as launched. -/
theorem frame_kernel : Cert.frame_Kernel := fun m ρ _ => Cert.Kernel.Hand.frame m ρ

/-- So does the idealized one. -/
theorem frame_kernelIdeal : Cert.frame_KernelIdeal := fun m ρ _ => Cert.KernelIdeal.Hand.frame m ρ

/-- The reference is host lines only: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten by the ideal pass. -/
theorem preserves : Cert.preserves_Kernel_KernelIdeal := trivial

/-- From memories agreeing on the arguments, both idealized programs end with the kernel's arrangement of the arguments
    in their result: the kernel by its run, the reference because its own arrangement equals the kernel's on real
    entries, which the precondition provides. -/
theorem algebraic : Cert.algebraic_KernelIdeal_ReferenceIdeal := by
  intro m ρ m' ρ' hpre hagree
  refine ⟨fun c => Cert.SpConv.outKer (Cert.KernelIdeal.HandValue.xArr m c) (Cert.KernelIdeal.HandValue.wArr m c)
      (Cert.KernelIdeal.HandValue.bArr m c), Cert.KernelIdeal.HandValue.kernel_run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v12_eq _ _ _).trans ?_
  refine (Cert.SpConv.RefSide.ref_is_outRef _ _ _).trans ?_
  rw [(hagree c).1, (hagree c).2.1, (hagree c).2.2]
  obtain ⟨hx, hW, hb⟩ := Cert.SpConv.allReal_of_pre _ _ _ (hpre c)
  exact (Cert.SpConv.outKer_eq_outRef _ _ _ hx hW hb).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
